-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S3x768 : Shape := ⟨2, ![3, 768]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S3x768 : S_.BroadcastsInDim S3x768 (![] : Fin 0 → Fin S3x768.rank)
  reducesTo_S3x768_S_d0_1 : S3x768.ReducesTo [0, 1] S_

variable [Facts]

def fn {F : FTy → Type} [FloatOps F] (main_arg0 : FVec F S65536x768 .f32) (main_arg1 : IVec S3x768 32) (main_arg2 : IVec S3x768 32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_c_0 : IVec S_ 32 := constantI S_ 32 0#32
  let main_v4 : IVec S3x768 32 := broadcastInDim S3x768 ![] bcast_S_S3x768 main_c_0
  let main_v5 : IVec S3x768 1 := cmpi .sge main_arg1 main_v4
  let main_c_1 : IVec S_ 1 := constantI S_ 1 1#1
  let main_v6 : IVec S_ 1 := (fun x v => Host.reduce IntOp.andi x v reducesTo_S3x768_S_d0_1 h_S_) main_v5 main_c_1
  let main_v7 : IVec S_ 1 := andi main_v3 main_v6
  main_v7
-- ==== Kernel.lean ====
abbrev S65536x768 : Shape := ⟨2, ![65536, 768]⟩
abbrev S3x768 : Shape := ⟨2, ![3, 768]⟩
abbrev S1536 : Shape := ⟨1, ![1536]⟩
abbrev S3x768x1 : Shape := ⟨3, ![3, 768, 1]⟩
abbrev S1x1x1536 : Shape := ⟨3, ![1, 1, 1536]⟩
abbrev S3x768x1536 : Shape := ⟨3, ![3, 768, 1536]⟩
abbrev S_ : Shape := ⟨0, ![]⟩
abbrev S1x768x1536 : Shape := ⟨3, ![1, 768, 1536]⟩
abbrev S768x1536 : Shape := ⟨2, ![768, 1536]⟩
abbrev S768x4608 : Shape := ⟨2, ![768, 4608]⟩
abbrev S65536x2048 : Shape := ⟨2, ![65536, 2048]⟩
abbrev S512x768 : Shape := ⟨2, ![512, 768]⟩
abbrev S512x2048 : Shape := ⟨2, ![512, 2048]⟩
abbrev S512x1536 : Shape := ⟨2, ![512, 1536]⟩
abbrev S512x512 : Shape := ⟨2, ![512, 512]⟩

abbrev nBuf : Space → Nat
  | .hbm => 29
  | .vmem => 5
  | .smem => 0
  | _ => 0

abbrev bufTy : (tb : Table) → Fin (tcTables nBuf tb) → BufTy
  | .hbm, ⟨0, _⟩ => ⟨S65536x768, .f32⟩
  | .hbm, ⟨1, _⟩ => ⟨S3x768, .i32⟩
  | .hbm, ⟨2, _⟩ => ⟨S3x768, .i32⟩
  | .hbm, ⟨3, _⟩ => ⟨S1536, .i32⟩
  | .hbm, ⟨4, _⟩ => ⟨S3x768x1, .i32⟩
  | .hbm, ⟨5, _⟩ => ⟨S1x1x1536, .i32⟩
  | .hbm, ⟨6, _⟩ => ⟨S3x768x1536, .i32⟩
  | .hbm, ⟨7, _⟩ => ⟨S3x768x1536, .i32⟩
  | .hbm, ⟨8, _⟩ => ⟨S3x768x1536, .i1⟩
  | .hbm, ⟨9, _⟩ => ⟨S3x768x1536, .f32⟩
  | .hbm, ⟨10, _⟩ => ⟨S_, .i32⟩
  | .hbm, ⟨11, _⟩ => ⟨S3x768, .i32⟩
  | .hbm, ⟨12, _⟩ => ⟨S3x768, .i32⟩
  | .hbm, ⟨13, _⟩ => ⟨S_, .i32⟩
  | .hbm, ⟨14, _⟩ => ⟨S3x768, .i32⟩
  | .hbm, ⟨15, _⟩ => ⟨S3x768, .i32⟩
  | .hbm, ⟨16, _⟩ => ⟨S3x768, .f32⟩
  | .hbm, ⟨17, _⟩ => ⟨S3x768x1, .f32⟩
  | .hbm, ⟨18, _⟩ => ⟨S3x768x1536, .f32⟩
  | .hbm, ⟨19, _⟩ => ⟨S3x768x1536, .f32⟩
  | .hbm, ⟨20, _⟩ => ⟨S1x768x1536, .f32⟩
  | .hbm, ⟨21, _⟩ => ⟨S768x1536, .f32⟩
  | .hbm, ⟨22, _⟩ => ⟨S1x768x1536, .f32⟩
  | .hbm, ⟨23, _⟩ => ⟨S768x1536, .f32⟩
  | .hbm, ⟨24, _⟩ => ⟨S1x768x1536, .f32⟩
  | .hbm, ⟨25, _⟩ => ⟨S768x1536, .f32⟩
  | .hbm, ⟨26, _⟩ => ⟨S768x4608, .f32⟩
  | .hbm, ⟨27, _⟩ => ⟨S768x4608, .bf16⟩
  | .hbm, ⟨28, _⟩ => ⟨S65536x2048, .f32⟩
  | .local _ .vmem, ⟨0, _⟩ => ⟨S512x768, .f32⟩
  | .local _ .vmem, ⟨1, _⟩ => ⟨S512x768, .f32⟩
  | .local _ .vmem, ⟨2, _⟩ => ⟨S768x4608, .bf16⟩
  | .local _ .vmem, ⟨3, _⟩ => ⟨S512x2048, .f32⟩
  | .local _ .vmem, ⟨4, _⟩ => ⟨S512x2048, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S3x768_S3x768x1_0_1 : S3x768.BroadcastsInDim S3x768x1 (![0, 1] : Fin 2 → Fin S3x768x1.rank)
  bcast_S1536_S1x1x1536_2 : S1536.BroadcastsInDim S1x1x1536 (![2] : Fin 1 → Fin S1x1x1536.rank)
  bcast_S3x768x1_S3x768x1536_0_1_2 : S3x768x1.BroadcastsInDim S3x768x1536 (![0, 1, 2] : Fin 3 → Fin S3x768x1536.rank)
  bcast_S1x1x1536_S3x768x1536_0_1_2 : S1x1x1536.BroadcastsInDim S3x768x1536 (![0, 1, 2] : Fin 3 → Fin S3x768x1536.rank)
  bcast_S_S3x768 : S_.BroadcastsInDim S3x768 (![] : Fin 0 → Fin S3x768.rank)
  slices_S3x768x1536_S1x768x1536_0_0_0 : S3x768x1536.Slices ![0, 0, 0] S1x768x1536
  shapeCasts_S1x768x1536_S768x1536 : S1x768x1536.ShapeCasts S768x1536
  slices_S3x768x1536_S1x768x1536_1_0_0 : S3x768x1536.Slices ![1, 0, 0] S1x768x1536
  slices_S3x768x1536_S1x768x1536_2_0_0 : S3x768x1536.Slices ![2, 0, 0] S1x768x1536
  concatenates_S768x1536_S768x1536_S768x1536_S768x4608_d1 : Shape.Concatenates [S768x1536, S768x1536, S768x1536] S768x4608 1
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  inb_S768x4608_S768x1536_0_0 : ∀ a, (![0, 0] : Fin 2 → Nat) a + S768x1536.size a ≤ S768x4608.size a
  h_S768x1536 : 0 < S768x1536.numel
  shapeCasts_S768x1536_S768x1536 : S768x1536.ShapeCasts S768x1536
  inb_S768x4608_S768x1536_0_1536 : ∀ a, (![0, 1536] : Fin 2 → Nat) a + S768x1536.size a ≤ S768x4608.size a
  inb_S768x4608_S768x1536_0_3072 : ∀ a, (![0, 3072] : Fin 2 → Nat) a + S768x1536.size a ≤ S768x4608.size a
  inb_S512x2048_S512x1536_0_0 : ∀ a, (![0, 0] : Fin 2 → Nat) a + S512x1536.size a ≤ S512x2048.size a
  h_S512x1536 : 0 < S512x1536.numel
  inb_S512x2048_S512x512_0_1536 : ∀ a, (![0, 1536] : Fin 2 → Nat) a + S512x512.size a ≤ S512x2048.size a
  h_S512x512 : 0 < S512x512.numel
  dot_S512x768_S768x1536_S512x1536_1_0_0_1_n_n_wf : DotDims.WF S512x768 S768x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S65536x768.size a
  hwx0_0 : ∀ i : grid0.Coords, EltTy.bits .f32 = 32 ∨ (Rect.block (s := S65536x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x4608.size a ≤ S768x4608.size a
  hwx0_1 : ∀ i : grid0.Coords, EltTy.bits .bf16 = 32 ∨ (Rect.block (s := S768x4608) S768x4608.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S65536x2048.size a
  hwx0_2 : ∀ i : grid0.Coords, EltTy.bits .f32 = 32 ∨ (Rect.block (s := S65536x2048) S512x2048.size (cc0_transform_2 i) (hinb0_2 i)).WholeWords (EltTy.packing .f32)

variable [Facts₀]

def dot_S512x768_S768x1536_S512x1536_1_0_0_1_n_n : DotDims S512x768 S768x1536 S512x1536 where
  lhsContracting := [1]
  rhsContracting := [0]
  lhsNonContracting := [0]
  rhsNonContracting := [1]
  lhsBatch := []
  rhsBatch := []
  wf := dot_S512x768_S768x1536_S512x1536_1_0_0_1_n_n_wf

abbrev win0_0 : Pipeline.Window sig grid0 :=
  Pipeline.Window.ofSpec (Memref.whole main_arg0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S768x4608.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x768 : Shape := ⟨2, ![65536, 768]⟩
abbrev S3x768 : Shape := ⟨2, ![3, 768]⟩
abbrev S_ : Shape := ⟨0, ![]⟩
abbrev S65536x1536 : Shape := ⟨2, ![65536, 1536]⟩
abbrev S1x768 : Shape := ⟨2, ![1, 768]⟩
abbrev S768 : Shape := ⟨1, ![768]⟩
abbrev S768x1 : Shape := ⟨2, ![768, 1]⟩
abbrev S65536x2048 : Shape := ⟨2, ![65536, 2048]⟩

abbrev nBuf : Space → Nat
  | .hbm => 72
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S3x768, .i32⟩
  | .hbm, ⟨2, _⟩ => ⟨S3x768, .i32⟩
  | .hbm, ⟨3, _⟩ => ⟨S_, .i32⟩
  | .hbm, ⟨4, _⟩ => ⟨S3x768, .i32⟩
  | .hbm, ⟨5, _⟩ => ⟨S3x768, .i32⟩
  | .hbm, ⟨6, _⟩ => ⟨S_, .i32⟩
  | .hbm, ⟨7, _⟩ => ⟨S3x768, .i32⟩
  | .hbm, ⟨8, _⟩ => ⟨S3x768, .i32⟩
  | .hbm, ⟨9, _⟩ => ⟨S3x768, .f32⟩
  | .hbm, ⟨10, _⟩ => ⟨S_, .f32⟩
  | .hbm, ⟨11, _⟩ => ⟨S65536x1536, .f32⟩
  | .hbm, ⟨12, _⟩ => ⟨S1x768, .f32⟩
  | .hbm, ⟨13, _⟩ => ⟨S768, .f32⟩
  | .hbm, ⟨14, _⟩ => ⟨S1x768, .f32⟩
  | .hbm, ⟨15, _⟩ => ⟨S65536x768, .f32⟩
  | .hbm, ⟨16, _⟩ => ⟨S65536x768, .f32⟩
  | .hbm, ⟨17, _⟩ => ⟨S_, .f32⟩
  | .hbm, ⟨18, _⟩ => ⟨S65536x1536, .f32⟩
  | .hbm, ⟨19, _⟩ => ⟨S1x768, .i32⟩
  | .hbm, ⟨20, _⟩ => ⟨S768, .i32⟩
  | .hbm, ⟨21, _⟩ => ⟨S_, .i32⟩
  | .hbm, ⟨22, _⟩ => ⟨S768, .i32⟩
  | .hbm, ⟨23, _⟩ => ⟨S768, .i1⟩
  | .hbm, ⟨24, _⟩ => ⟨S_, .i32⟩
  | .hbm, ⟨25, _⟩ => ⟨S768, .i32⟩
  | .hbm, ⟨26, _⟩ => ⟨S768, .i32⟩
  | .hbm, ⟨27, _⟩ => ⟨S768, .i32⟩
  | .hbm, ⟨28, _⟩ => ⟨S768x1, .i32⟩
  | .hbm, ⟨29, _⟩ => ⟨S65536x1536, .f32⟩
  | .hbm, ⟨30, _⟩ => ⟨S65536x1536, .f32⟩
  | .hbm, ⟨31, _⟩ => ⟨S1x768, .f32⟩
  | .hbm, ⟨32, _⟩ => ⟨S768, .f32⟩
  | .hbm, ⟨33, _⟩ => ⟨S1x768, .f32⟩
  | .hbm, ⟨34, _⟩ => ⟨S65536x768, .f32⟩
  | .hbm, ⟨35, _⟩ => ⟨S65536x768, .f32⟩
  | .hbm, ⟨36, _⟩ => ⟨S_, .f32⟩
  | .hbm, ⟨37, _⟩ => ⟨S65536x1536, .f32⟩
  | .hbm, ⟨38, _⟩ => ⟨S1x768, .i32⟩
  | .hbm, ⟨39, _⟩ => ⟨S768, .i32⟩
  | .hbm, ⟨40, _⟩ => ⟨S_, .i32⟩
  | .hbm, ⟨41, _⟩ => ⟨S768, .i32⟩
  | .hbm, ⟨42, _⟩ => ⟨S768, .i1⟩
  | .hbm, ⟨43, _⟩ => ⟨S_, .i32⟩
  | .hbm, ⟨44, _⟩ => ⟨S768, .i32⟩
  | .hbm, ⟨45, _⟩ => ⟨S768, .i32⟩
  | .hbm, ⟨46, _⟩ => ⟨S768, .i32⟩
  | .hbm, ⟨47, _⟩ => ⟨S768x1, .i32⟩
  | .hbm, ⟨48, _⟩ => ⟨S65536x1536, .f32⟩
  | .hbm, ⟨49, _⟩ => ⟨S65536x1536, .f32⟩
  | .hbm, ⟨50, _⟩ => ⟨S1x768, .f32⟩
  | .hbm, ⟨51, _⟩ => ⟨S768, .f32⟩
  | .hbm, ⟨52, _⟩ => ⟨S1x768, .f32⟩
  | .hbm, ⟨53, _⟩ => ⟨S65536x768, .f32⟩
  | .hbm, ⟨54, _⟩ => ⟨S65536x768, .f32⟩
  | .hbm, ⟨55, _⟩ => ⟨S_, .f32⟩
  | .hbm, ⟨56, _⟩ => ⟨S65536x1536, .f32⟩
  | .hbm, ⟨57, _⟩ => ⟨S1x768, .i32⟩
  | .hbm, ⟨58, _⟩ => ⟨S768, .i32⟩
  | .hbm, ⟨59, _⟩ => ⟨S_, .i32⟩
  | .hbm, ⟨60, _⟩ => ⟨S768, .i32⟩
  | .hbm, ⟨61, _⟩ => ⟨S768, .i1⟩
  | .hbm, ⟨62, _⟩ => ⟨S_, .i32⟩
  | .hbm, ⟨63, _⟩ => ⟨S768, .i32⟩
  | .hbm, ⟨64, _⟩ => ⟨S768, .i32⟩
  | .hbm, ⟨65, _⟩ => ⟨S768, .i32⟩
  | .hbm, ⟨66, _⟩ => ⟨S768x1, .i32⟩
  | .hbm, ⟨67, _⟩ => ⟨S65536x1536, .f32⟩
  | .hbm, ⟨68, _⟩ => ⟨S65536x1536, .f32⟩
  | .hbm, ⟨69, _⟩ => ⟨S_, .i32⟩
  | .hbm, ⟨70, _⟩ => ⟨S_, .f32⟩
  | .hbm, ⟨71, _⟩ => ⟨S65536x2048, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_8 : Ref sig .tc := ⟨.hbm, 59, rfl⟩
abbrev main_v46 : Ref sig .tc := ⟨.hbm, 60, rfl⟩
abbrev main_v47 : Ref sig .tc := ⟨.hbm, 61, rfl⟩
abbrev main_c_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_10 : Ref sig .tc := ⟨.hbm, 69, rfl⟩
abbrev main_call0_v0 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  bcast_S_S3x768 : S_.BroadcastsInDim S3x768 (![] : Fin 0 → Fin S3x768.rank)
  bcast_S_S65536x1536 : S_.BroadcastsInDim S65536x1536 (![] : Fin 0 → Fin S65536x1536.rank)
  slices_S3x768_S1x768_0_0 : S3x768.Slices ![0, 0] S1x768
  shapeCasts_S1x768_S768 : S1x768.ShapeCasts S768
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  bcast_S_S768 : S_.BroadcastsInDim S768 (![] : Fin 0 → Fin S768.rank)
  bcast_S768_S768x1_0 : S768.BroadcastsInDim S768x1 (![0] : Fin 1 → Fin S768x1.rank)
  slices_S3x768_S1x768_1_0 : S3x768.Slices ![1, 0] S1x768
  slices_S3x768_S1x768_2_0 : S3x768.Slices ![2, 0] S1x768
  pads_S65536x1536_S65536x2048_000_05120 : S65536x1536.Pads (![0, 0] : Fin 2 → Nat) ![0, 512] ![0, 0] S65536x2048
  h_S_ : 0 < S_.numel
  scatter_S65536x1536_S768x1_S65536x768_0_1_1_1_wf : ScatterDims.WF S65536x1536 S768x1 S65536x768 [0] [1] [1] 1

variable [Facts₀]

def scatter_S65536x1536_S768x1_S65536x768_0_1_1_1 : ScatterDims S65536x1536 S768x1 S65536x768 where
  updateWindowDims := [0]
  insertedWindowDims := [1]
  scatterDimsToOperandDims := [1]
  indexVectorDim := 1
  wf := scatter_S65536x1536_S768x1_S65536x768_0_1_1_1_wf

class Facts : Prop extends Facts₀ where

variable [Facts]
-- ==== Proof.SketchFrameBits.lean ====
/- The frame of the sketch program, by the launch theorem of the one-region pipeline.

   @main is twenty-five host operations (the sign-times-one-hot table, its three slices joined along
   the columns and narrowed) and then one region of 128 grid points. At a point the body reads a
   512×768 block of the first argument and three 768×1536 column slices of the table, and writes its
   512×2048 output block in two stores: columns 0..1535 the product of the three matrix products,
   columns 1536..2047 zero. The two stores cover the block, so what the output buffer holds after the
   body is a function of the two input blocks alone (`outBlk`), the inputs are left as they were, and
   the launch theorem gives the run with every array named. The argument arrays are written by no
   host operation and are staged read-only, so they end as they began. -/
import proofs.«404943_j79413945303746_3_alg».proof.Proof.Gen.Kernel.Launch
import proofs.«404943_j79413945303746_3_alg».proof.Proof.Gen.Kernel.Skeleton
import proofs.«404943_j79413945303746_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument of @main: the region finds each as launched. -/
theorem V_of_not_written (c : Dev nD) (b : Ref sig .tc)
    (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp hb)

theorem V_main_arg0 (c : Dev nD) : V m c main_arg0 = m ((c : Thread nD τ).loc main_arg0) :=
  V_of_not_written m c main_arg0 (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide))
theorem V_main_arg1 (c : Dev nD) : V m c main_arg1 = m ((c : Thread nD τ).loc main_arg1) :=
  V_of_not_written m c main_arg1 (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide))
theorem V_main_arg2 (c : Dev nD) : V m c main_arg2 = m ((c : Thread nD τ).loc main_arg2) :=
  V_of_not_written m c main_arg2 (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window's staging buffer holds its block at every point, fetched there or not. -/
theorem before0_0_of {c : Dev nD} (dat : Dat τ (Elt F) Unit ℕ (UR sig nD τ) ℕ cfg0 c)
    (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c)
    (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

/-! ## The body's accesses and what it leaves -/

/-- The whole 512×768 block of the first operand. -/
abbrev rX : Rect S512x768 := Rect.unit (s := S512x768) ![0, 0] S512x768.size inb_S512x768_S512x768_0_0
/-- The three 768×1536 column slices of the table. -/
abbrev rN0 : Rect S768x4608 := Rect.unit (s := S768x4608) ![0, 0] S768x1536.size inb_S768x4608_S768x1536_0_0
abbrev rN1 : Rect S768x4608 := Rect.unit (s := S768x4608) ![0, 1536] S768x1536.size inb_S768x4608_S768x1536_0_1536
abbrev rN2 : Rect S768x4608 := Rect.unit (s := S768x4608) ![0, 3072] S768x1536.size inb_S768x4608_S768x1536_0_3072
/-- The output block's first 1536 columns and its last 512. -/
abbrev rO0 : Rect S512x2048 := Rect.unit (s := S512x2048) ![0, 0] S512x1536.size inb_S512x2048_S512x1536_0_0
abbrev rO1 : Rect S512x2048 := Rect.unit (s := S512x2048) ![0, 1536] S512x512.size inb_S512x2048_S512x512_0_1536

/-- The body's two stores as pieces, the later one first. -/
abbrev outPieces (p0 : Vec F S512x1536 .f32) (p1 : Vec F S512x512 .f32) : List (View.Piece (Elt F) S512x2048 .f32) :=
  [⟨rO1, p1⟩, ⟨rO0, p0⟩]

/-- What the output buffer holds after the body, from the two input blocks. -/
def outBlk (x0 : Vec F S512x768 .f32) (x1 : Vec F S768x4608 .bf16) : Vec F S512x2048 .f32 :=
  View.canon (outPieces (k0_pay1 (View.ld x0 rX) (View.ld x1 rN0) (View.ld x1 rN1) (View.ld x1 rN2)) (k0_pay2 (F := F)))

/-- Columns 0..1535 and columns 1536..2047 are all the columns: cut into 512×512 squares the two
    pieces tile the block. -/
theorem outCover (p0 : Vec F S512x1536 .f32) (p1 : Vec F S512x512 .f32) (y : S512x2048.Idx) :
    ∃ pc ∈ outPieces p0 p1, y ∈ pc.1.set :=
  View.cover_of_tiledBy (outPieces p0 p1) S512x512.size (by sl_kernel_rfl) y

/-! ## The body's triple -/

set_option maxHeartbeats 1000000 in
/-- The body on whole staging buffers, the inputs' at read contents and the output's at anything,
    leaves the inputs as they were and the output at `outBlk` of them. -/
theorem sound_kernel (c : Dev nD) (E : Set ℕ) (i : grid0.Coords)
    (arg1 : Memref sig .tc .vmem S512x768 .f32) (harg1 : arg1.IsWhole)
    (arg2 : Memref sig .tc .vmem S768x4608 .bf16) (harg2 : arg2.IsWhole)
    (arg3 : Memref sig .tc .vmem S512x2048 .f32) (harg3 : arg3.IsWhole)
    (x0 : Vec F S512x768 .f32) (x1 : Vec F S768x4608 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E
          (cc0__sketch_kernel i arg1 harg1 arg2 harg2 arg3 harg3) K := by
  simp only [cc0__sketch_kernel_eq_skeleton]; unfold cc0__sketch_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _ _)

/-! ## The pipeline's proof data -/

/-- The arrays as the region finds them; after the body each input's buffer at its block and the
    output's at `outBlk` of the input blocks; nothing else kept, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outBlk (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the final state has every array of the pipeline
    at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and its three arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel.Hand

end
-- ==== Proof.SketchFrameIdeal.lean ====
/- The frame of the sketch program, by the launch theorem of the one-region pipeline.

   @main is twenty-five host operations (the sign-times-one-hot table, its three slices joined along
   the columns and narrowed) and then one region of 128 grid points. At a point the body reads a
   512×768 block of the first argument and three 768×1536 column slices of the table, and writes its
   512×2048 output block in two stores: columns 0..1535 the product of the three matrix products,
   columns 1536..2047 zero. The two stores cover the block, so what the output buffer holds after the
   body is a function of the two input blocks alone (`outBlk`), the inputs are left as they were, and
   the launch theorem gives the run with every array named. The argument arrays are written by no
   host operation and are staged read-only, so they end as they began. -/
import proofs.«404943_j79413945303746_3_alg».proof.Proof.Gen.KernelIdeal.Launch
import proofs.«404943_j79413945303746_3_alg».proof.Proof.Gen.KernelIdeal.Skeleton
import proofs.«404943_j79413945303746_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument of @main: the region finds each as launched. -/
theorem V_of_not_written (c : Dev nD) (b : Ref sig .tc)
    (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp hb)

theorem V_main_arg0 (c : Dev nD) : V m c main_arg0 = m ((c : Thread nD τ).loc main_arg0) :=
  V_of_not_written m c main_arg0 (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide))
theorem V_main_arg1 (c : Dev nD) : V m c main_arg1 = m ((c : Thread nD τ).loc main_arg1) :=
  V_of_not_written m c main_arg1 (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide))
theorem V_main_arg2 (c : Dev nD) : V m c main_arg2 = m ((c : Thread nD τ).loc main_arg2) :=
  V_of_not_written m c main_arg2 (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide))

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window's staging buffer holds its block at every point, fetched there or not. -/
theorem before0_0_of {c : Dev nD} (dat : Dat τ (Elt F) Unit ℕ (UR sig nD τ) ℕ cfg0 c)
    (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c)
    (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

/-! ## The body's accesses and what it leaves -/

/-- The whole 512×768 block of the first operand. -/
abbrev rX : Rect S512x768 := Rect.unit (s := S512x768) ![0, 0] S512x768.size inb_S512x768_S512x768_0_0
/-- The three 768×1536 column slices of the table. -/
abbrev rN0 : Rect S768x4608 := Rect.unit (s := S768x4608) ![0, 0] S768x1536.size inb_S768x4608_S768x1536_0_0
abbrev rN1 : Rect S768x4608 := Rect.unit (s := S768x4608) ![0, 1536] S768x1536.size inb_S768x4608_S768x1536_0_1536
abbrev rN2 : Rect S768x4608 := Rect.unit (s := S768x4608) ![0, 3072] S768x1536.size inb_S768x4608_S768x1536_0_3072
/-- The output block's first 1536 columns and its last 512. -/
abbrev rO0 : Rect S512x2048 := Rect.unit (s := S512x2048) ![0, 0] S512x1536.size inb_S512x2048_S512x1536_0_0
abbrev rO1 : Rect S512x2048 := Rect.unit (s := S512x2048) ![0, 1536] S512x512.size inb_S512x2048_S512x512_0_1536

/-- The body's two stores as pieces, the later one first. -/
abbrev outPieces (p0 : Vec F S512x1536 .f32) (p1 : Vec F S512x512 .f32) : List (View.Piece (Elt F) S512x2048 .f32) :=
  [⟨rO1, p1⟩, ⟨rO0, p0⟩]

/-- What the output buffer holds after the body, from the two input blocks. -/
def outBlk (x0 : Vec F S512x768 .f32) (x1 : Vec F S768x4608 .bf16) : Vec F S512x2048 .f32 :=
  View.canon (outPieces (k0_pay1 (View.ld x0 rX) (View.ld x1 rN0) (View.ld x1 rN1) (View.ld x1 rN2)) (k0_pay2 (F := F)))

/-- Columns 0..1535 and columns 1536..2047 are all the columns: cut into 512×512 squares the two
    pieces tile the block. -/
theorem outCover (p0 : Vec F S512x1536 .f32) (p1 : Vec F S512x512 .f32) (y : S512x2048.Idx) :
    ∃ pc ∈ outPieces p0 p1, y ∈ pc.1.set :=
  View.cover_of_tiledBy (outPieces p0 p1) S512x512.size (by sl_kernel_rfl) y

/-! ## The body's triple -/

set_option maxHeartbeats 1000000 in
/-- The body on whole staging buffers, the inputs' at read contents and the output's at anything,
    leaves the inputs as they were and the output at `outBlk` of them. -/
theorem sound_kernel (c : Dev nD) (E : Set ℕ) (i : grid0.Coords)
    (arg1 : Memref sig .tc .vmem S512x768 .f32) (harg1 : arg1.IsWhole)
    (arg2 : Memref sig .tc .vmem S768x4608 .bf16) (harg2 : arg2.IsWhole)
    (arg3 : Memref sig .tc .vmem S512x2048 .f32) (harg3 : arg3.IsWhole)
    (x0 : Vec F S512x768 .f32) (x1 : Vec F S768x4608 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E
          (cc0__sketch_kernel i arg1 harg1 arg2 harg2 arg3 harg3) K := by
  simp only [cc0__sketch_kernel_eq_skeleton]; unfold cc0__sketch_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _ _)

/-! ## The pipeline's proof data -/

/-- The arrays as the region finds them; after the body each input's buffer at its block and the
    output's at `outBlk` of the input blocks; nothing else kept, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outBlk (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the final state has every array of the pipeline
    at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and its three arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Hand

end
-- ==== Proof.SketchSpec.lean ====
/- The count sketch, as one function of the three arguments, and the two ways of adding up a bucket.

   For hash function `k` the bucket `c` of row `b` is the sum, over the features `j` whose hash index
   is `c`, of the feature times its sign; the sketch of the row at column `c < 1536` is the product of
   its three buckets, and zero in the 512 columns of padding.

   A bucket can be added up as a masked sum (every feature, a zero for the ones hashed elsewhere) or as
   a product with a one-hot row: the feature times (the indicator of `hash = c` times the sign). The
   two agree term by term over the extended reals, with no finiteness needed: an indicator of one leaves
   the sign, an indicator of zero kills it, and anything times zero is zero. -/
import Idealize.ShloMosaic.Lib.ValueIdx
import Idealize.ShloMosaic.PureOps.Ideal
import Mathlib.Data.EReal.Operations

noncomputable section

namespace Cert.Sketch

open Idealize.ShloMosaic Idealize.ShloMosaic.ValueIdx

/-- The features, the hash tables (and the sign tables), the sketch. -/
abbrev SX : Shape := ⟨2, ![65536, 768]⟩
abbrev SH : Shape := ⟨2, ![3, 768]⟩
abbrev SO : Shape := ⟨2, ![65536, 2048]⟩

/-- The sign of feature `j` under hash function `k`: the word `2·s − 1` read as a signed integer. -/
def sgn (sg : SH.Idx → BitVec 32) (k : Fin 3) (j : Fin 768) : EReal :=
  FloatOps.sitofp (F := Ideal) .f32 (IntOp.subi (IntOp.muli 2#32 (sg (ix2 k j))) 1#32)

/-- Bucket `c` of row `b` under hash function `k`: the signed features hashed to `c`, summed. -/
def bucket (x : SX.Idx → EReal) (h sg : SH.Idx → BitVec 32) (k : Fin 3) (b : Fin 65536) (c : Fin 1536) : EReal :=
  ∑ j : Fin 768, if (h (ix2 k j)).toInt = (c.val : Int) then x (ix2 b j) * sgn sg k j else 0

/-- The sketch: the product of the three buckets in the first 1536 columns, zero in the padding. -/
def sketch (x : SX.Idx → EReal) (h sg : SH.Idx → BitVec 32) : SO.Idx → EReal := fun i =>
  if hc : (i 1).val < 1536 then
    bucket x h sg 0 ⟨(i 0).val, idx2_lt0 i⟩ ⟨(i 1).val, hc⟩
      * bucket x h sg 1 ⟨(i 0).val, idx2_lt0 i⟩ ⟨(i 1).val, hc⟩
      * bucket x h sg 2 ⟨(i 0).val, idx2_lt0 i⟩ ⟨(i 1).val, hc⟩
  else 0

/-- A 32-bit word read signed is the small natural `c` exactly when it is `c`'s word. -/
theorem toInt_eq_iff (w : BitVec 32) (c : Nat) (hc : c < 1536) : w.toInt = (c : Int) ↔ w = BitVec.ofNat 32 c := by
  have hofc : (BitVec.ofNat 32 c).toInt = (c : Int) := by
    rw [BitVec.toInt_eq_toNat_cond, BitVec.toNat_ofNat, Nat.mod_eq_of_lt (by omega)]
    rw [if_pos (by omega)]
  constructor
  · intro e
    apply BitVec.eq_of_toInt_eq
    rw [e, hofc]
  · rintro rfl
    exact hofc

/-- The indicator of `w = c`, as the one-bit comparison converted to a number. -/
theorem indicator (w : BitVec 32) (c : Nat) (hc : c < 1536) :
    FloatOps.uitofp (F := Ideal) .f32 (IntOp.cmpi .eq w (BitVec.ofNat 32 c)) = if w.toInt = (c : Int) then 1 else 0 := by
  by_cases e : w.toInt = (c : Int)
  · rw [if_pos e, (toInt_eq_iff w c hc).mp e]
    show (((BitVec.ofBool (BitVec.ofNat 32 c == BitVec.ofNat 32 c)).toNat : ℝ) : EReal) = 1
    rw [beq_self_eq_true]; simp
  · rw [if_neg e]
    have ne : ¬ w = BitVec.ofNat 32 c := fun h => e ((toInt_eq_iff w c hc).mpr h)
    show (((BitVec.ofBool (w == BitVec.ofNat 32 c)).toNat : ℝ) : EReal) = 0
    rw [beq_eq_false_iff_ne.mpr ne]; simp

/-- A bucket as a product with a one-hot row. -/
theorem bucket_onehot (x : SX.Idx → EReal) (h sg : SH.Idx → BitVec 32) (k : Fin 3) (b : Fin 65536) (c : Fin 1536) :
    ∑ j : Fin 768, x (ix2 b j)
        * (FloatOps.uitofp (F := Ideal) .f32 (IntOp.cmpi .eq (h (ix2 k j)) (BitVec.ofNat 32 c.val)) * sgn sg k j)
      = bucket x h sg k b c := by
  unfold bucket
  refine Finset.sum_congr rfl fun j _ => ?_
  rw [indicator _ _ c.isLt]
  by_cases e : (h (ix2 k j)).toInt = (c.val : Int)
  · rw [if_pos e, if_pos e, one_mul]
  · rw [if_neg e, if_neg e, zero_mul, mul_zero]

end Cert.Sketch

end
-- ==== Proof.SketchTableDef.lean ====
/- The sign-times-one-hot table the host builds before the region, as a function of the hash indices
   and the sign words, read at an index.

   `T[k, j, c] = [h[k, j] = c] · (2·sg[k, j] − 1)` over 3 × 768 × 1536: the comparison of the hash
   index, spread along the columns, with the column number, spread along the other two axes, as a
   number; times the sign, spread along the columns. The table is the three 768 × 1536 slabs of `T`
   side by side: its entry `(j, 1536·k + c)` is `T[k, j, c]`. The narrowing to sixteen bits is the
   identity on the values. -/
import proofs.«404943_j79413945303746_3_alg».proof.Proof.Gen.KernelIdeal
import proofs.«404943_j79413945303746_3_alg».proof.Proof.SketchSpec
import Idealize.ShloMosaic.Lib.Pipeline.Value
import Idealize.ShloMosaic.Lib.ValueIdx
import Idealize.ShloMosaic.Lib.IdealHost

set_option maxRecDepth 16384

noncomputable section

namespace Cert.KernelIdeal.Table

open Cert.KernelIdeal Cert.KernelIdeal.Gen
open Idealize.ShloMosaic Idealize.ShloMosaic.ValueIdx

/-- The host's array `T`. -/
def tbl3 (h sg : IVec S3x768 32) : FVec Ideal S3x768x1536 .f32 :=
  mulf
    (uitofp .f32 (cmpi .eq
      (broadcastInDim S3x768x1536 ![0, 1, 2] bcast_S3x768x1_S3x768x1536_0_1_2
        (broadcastInDim S3x768x1 ![0, 1] bcast_S3x768_S3x768x1_0_1 h))
      (broadcastInDim S3x768x1536 ![0, 1, 2] bcast_S1x1x1536_S3x768x1536_0_1_2
        (broadcastInDim S1x1x1536 ![2] bcast_S1536_S1x1x1536_2 (iotaInDim S1536 32 0)))))
    (broadcastInDim S3x768x1536 ![0, 1, 2] bcast_S3x768x1_S3x768x1536_0_1_2
      (broadcastInDim S3x768x1 ![0, 1] bcast_S3x768_S3x768x1_0_1
        (sitofp .f32 (subi (muli (broadcastInDim S3x768 ![] bcast_S_S3x768 (constantI S_ 32 2#32)) sg)
          (broadcastInDim S3x768 ![] bcast_S_S3x768 (constantI S_ 32 1#32))))))

/-- Slab `kk` of a 3 × 768 × 1536 array as a 768 × 1536 matrix. -/
def slab (kk : Nat) (hs : S3x768x1536.Slices ![kk, 0, 0] S1x768x1536) (T : FVec Ideal S3x768x1536 .f32) :
    FVec Ideal S768x1536 .f32 :=
  shapeCast S768x1536 (extractStridedSlice S1x768x1536 ![kk, 0, 0] T hs) shapeCasts_S1x768x1536_S768x1536

/-- The three slabs, in order. -/
abbrev slabs (h sg : IVec S3x768 32) : List ((s : Shape) × (s.Idx → EReal)) :=
  [⟨S768x1536, slab 0 slices_S3x768x1536_S1x768x1536_0_0_0 (tbl3 h sg)⟩,
   ⟨S768x1536, slab 1 slices_S3x768x1536_S1x768x1536_1_0_0 (tbl3 h sg)⟩,
   ⟨S768x1536, slab 2 slices_S3x768x1536_S1x768x1536_2_0_0 (tbl3 h sg)⟩]

/-- The table: the three slabs side by side, narrowed. -/
def tbl (h sg : IVec S3x768 32) : FVec Ideal S768x4608 .bf16 :=
  truncf .bf16 (concatenate S768x4608 1 (slabs h sg)
    concatenates_S768x1536_S768x1536_S768x1536_S768x4608_d1) bitsLt_bf16_f32

/-- A 3 × 768 array spread along a third axis of 1536 reads, at `(k, j, c)`, its entry `(k, j)`. -/
theorem spread_rows {α : Type} (y : S3x768.Idx → α) (k : Fin 3) (j : Fin 768) (c : Fin 1536) :
    broadcastInDim S3x768x1536 ![0, 1, 2] bcast_S3x768x1_S3x768x1536_0_1_2
      (broadcastInDim S3x768x1 ![0, 1] bcast_S3x768_S3x768x1_0_1 y) (ix3 k j c) = y (ix2 k j) := by
  rw [broadcastInDim_apply _ bcast_S3x768x1_S3x768x1536_0_1_2 _ (ix3 k j c) (ix3 k j ⟨0, Nat.one_pos⟩) (fun a => match a with
      | ⟨0, _⟩ => by show k.val = if (3 : Nat) = 1 then 0 else k.val; rw [if_neg (by decide)]
      | ⟨1, _⟩ => by show j.val = if (768 : Nat) = 1 then 0 else j.val; rw [if_neg (by decide)]
      | ⟨2, _⟩ => by show 0 = if (1 : Nat) = 1 then 0 else c.val; rw [if_pos rfl])]
  exact broadcastInDim_apply _ bcast_S3x768_S3x768x1_0_1 y _ (ix2 k j) (fun a => match a with
      | ⟨0, _⟩ => by show k.val = if (3 : Nat) = 1 then 0 else k.val; rw [if_neg (by decide)]
      | ⟨1, _⟩ => by show j.val = if (768 : Nat) = 1 then 0 else j.val; rw [if_neg (by decide)])

/-- The column numbers spread along the first two axes read, at `(k, j, c)`, the word of `c`. -/
theorem spread_cols (k : Fin 3) (j : Fin 768) (c : Fin 1536) :
    broadcastInDim S3x768x1536 ![0, 1, 2] bcast_S1x1x1536_S3x768x1536_0_1_2
      (broadcastInDim S1x1x1536 ![2] bcast_S1536_S1x1x1536_2 (iotaInDim S1536 32 0)) (ix3 k j c) = BitVec.ofNat 32 c.val := by
  rw [broadcastInDim_apply _ bcast_S1x1x1536_S3x768x1536_0_1_2 _ (ix3 k j c)
      (ix3 (⟨0, Nat.one_pos⟩ : Fin 1) (⟨0, Nat.one_pos⟩ : Fin 1) c) (fun a => match a with
      | ⟨0, _⟩ => by show 0 = if (1 : Nat) = 1 then 0 else k.val; rw [if_pos rfl]
      | ⟨1, _⟩ => by show 0 = if (1 : Nat) = 1 then 0 else j.val; rw [if_pos rfl]
      | ⟨2, _⟩ => by show c.val = if (1536 : Nat) = 1 then 0 else c.val; rw [if_neg (by decide)])]
  rw [broadcastInDim_apply _ bcast_S1536_S1x1x1536_2 _ _ (ix1 c) (fun a => match a with
      | ⟨0, _⟩ => by show c.val = if (1536 : Nat) = 1 then 0 else c.val; rw [if_neg (by decide)])]
  rfl

/-- A scalar word spread over 3 × 768 reads that word everywhere. -/
theorem spread_word (w : BitVec 32) (i : S3x768.Idx) :
    broadcastInDim S3x768 ![] bcast_S_S3x768 (constantI S_ 32 w) i = w :=
  broadcastInDim_apply _ bcast_S_S3x768 (constantI S_ 32 w) i ix0 (fun a => a.elim0)

/-- `T` at `(k, j, c)`: the indicator of `h[k, j] = c` times the sign. -/
theorem tbl3_apply (h sg : IVec S3x768 32) (k : Fin 3) (j : Fin 768) (c : Fin 1536) :
    tbl3 h sg (ix3 k j c)
      = FloatOps.uitofp (F := Ideal) .f32 (IntOp.cmpi .eq (h (ix2 k j)) (BitVec.ofNat 32 c.val)) * Cert.Sketch.sgn sg k j := by
  unfold tbl3
  rw [mulf_apply]
  congr 1
  · show FloatOps.uitofp (F := Ideal) .f32 (IntOp.cmpi .eq (_ : BitVec 32) (_ : BitVec 32)) = _
    rw [spread_rows h k j c, spread_cols k j c]
  · rw [spread_rows _ k j c]
    show FloatOps.sitofp (F := Ideal) .f32 (IntOp.subi (IntOp.muli (_ : BitVec 32) (sg (ix2 k j))) (_ : BitVec 32)) = _
    rw [spread_word, spread_word]
    rfl

/-- A slab at `(j, c)` is the array at `(kk, j, c)`. -/
theorem slab_apply (kk : Nat) (hk : kk < 3) (hs : S3x768x1536.Slices ![kk, 0, 0] S1x768x1536)
    (T : FVec Ideal S3x768x1536 .f32) (j : Fin 768) (c : Fin 1536) :
    slab kk hs T (ix2 j c) = T (ix3 ⟨kk, hk⟩ j c) := by
  unfold slab
  rw [shapeCast_apply _ shapeCasts_S1x768x1536_S768x1536 (ix2 j c) (ix3 (⟨0, Nat.one_pos⟩ : Fin 1) j c)
    (by rewrite [Shape.rowMajor_val_three, Shape.rowMajor_val_two]
        show (0 * 768 + j.val) * 1536 + c.val = j.val * 1536 + c.val; omega)]
  exact extractStridedSlice_apply ![kk, 0, 0] T hs _ (ix3 ⟨kk, hk⟩ j c) (fun a => match a with
    | ⟨0, _⟩ => by show kk = kk + 0; omega
    | ⟨1, _⟩ => by show j.val = 0 + j.val; omega
    | ⟨2, _⟩ => by show c.val = 0 + c.val; omega)

/-- The table at `(j, 1536·k + c)`: the indicator of `h[k, j] = c` times the sign. -/
theorem tbl_apply (h sg : IVec S3x768 32) (k : Fin 3) (j : Fin 768) (c : Fin 1536) :
    tbl h sg (ix2 j ⟨1536 * k.val + c.val, by have := k.isLt; have := c.isLt; omega⟩)
      = FloatOps.uitofp (F := Ideal) .f32 (IntOp.cmpi .eq (h (ix2 k j)) (BitVec.ofNat 32 c.val)) * Cert.Sketch.sgn sg k j := by
  unfold tbl
  rw [truncf_apply]
  match k with
  | ⟨0, _⟩ =>
    rw [concatenate_apply_piece (1 : Fin S768x4608.rank) (slabs h sg) concatenates_S768x1536_S768x1536_S768x1536_S768x4608_d1
      (ix2 j ⟨1536 * 0 + c.val, by have := c.isLt; omega⟩)
      0 (by show 0 < 3; omega) S768x1536 _ rfl rfl 0 rfl (ix2 j c)
      (fun b hb => match b with | ⟨0, _⟩ => rfl | ⟨1, _⟩ => absurd rfl hb)
      (by show 0 + c.val = 1536 * 0 + c.val; omega)]
    rw [slab_apply 0 (by decide), tbl3_apply]
  | ⟨1, _⟩ =>
    rw [concatenate_apply_piece (1 : Fin S768x4608.rank) (slabs h sg) concatenates_S768x1536_S768x1536_S768x1536_S768x4608_d1
      (ix2 j ⟨1536 * 1 + c.val, by have := c.isLt; omega⟩)
      1 (by show 1 < 3; omega) S768x1536 _ rfl rfl 1536 rfl (ix2 j c)
      (fun b hb => match b with | ⟨0, _⟩ => rfl | ⟨1, _⟩ => absurd rfl hb)
      (by show 1536 + c.val = 1536 * 1 + c.val; omega)]
    rw [slab_apply 1 (by decide), tbl3_apply]
  | ⟨2, _⟩ =>
    rw [concatenate_apply_piece (1 : Fin S768x4608.rank) (slabs h sg) concatenates_S768x1536_S768x1536_S768x1536_S768x4608_d1
      (ix2 j ⟨1536 * 2 + c.val, by have := c.isLt; omega⟩)
      2 (by show 2 < 3; omega) S768x1536 _ rfl rfl 3072 rfl (ix2 j c)
      (fun b hb => match b with | ⟨0, _⟩ => rfl | ⟨1, _⟩ => absurd rfl hb)
      (by show 3072 + c.val = 1536 * 2 + c.val; omega)]
    rw [slab_apply 2 (by decide), tbl3_apply]

end Cert.KernelIdeal.Table

end
-- ==== Proof.LibNary3.lean ====
/-
  The result of an operation over a LITERAL family of three operand references.

  An operation over a family `xs : Fin n → reference` writes, at its result reference, its function applied to the
  family of the operands' contents `fun k => V (xs k)`. When the family is the literal triple `![x, a, b]`, the
  operand contents are read here at the three references themselves — the family `V x, V a, V b` built by
  `Fin.cons` — so that a rewriting of a straight line of operations can go on through each operand: under the binder
  the reference `![x, a, b] k` is no literal. Stated once for rewriting and once, the result reference un-indexed,
  for simplification; the same pair as the library's lemma for a literal family of four.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- An operation over the literal family `![x, a, b]` writes, at its result reference, its function at the three
    operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a simplification pass fires on. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.SketchTable.lean ====
/- What the region finds in the table's buffer: the host operations before the region, composed,
   are the sign-times-one-hot table of the hash indices and the sign words as launched. -/
import proofs.«404943_j79413945303746_3_alg».proof.Proof.SketchFrameIdeal
import proofs.«404943_j79413945303746_3_alg».proof.Proof.SketchTableDef
import proofs.«404943_j79413945303746_3_alg».proof.Proof.LibNary3
import Idealize.ShloMosaic.Lib.StableHlo.Run

set_option maxRecDepth 16384

noncomputable section

namespace Cert.KernelIdeal.Hand

open Cert.KernelIdeal Cert.KernelIdeal.Gen Cert.KernelIdeal.Table
open Idealize.ShloMosaic Idealize.ShloMosaic.TcCoe Idealize.ShloMosaic.StableHlo
open Idealize.SL.Sem

variable (m : (ℓ : Loc nD τ sig) → Buf (Elt Ideal) ℓ)

set_option maxHeartbeats 8000000 in
/-- The table's buffer at region entry holds the table of the launched hash indices and sign words:
    each host operation's result is its function of its operands' contents, the three-piece join
    read at its three operands, and no operation writes a buffer an earlier one's result sits in. -/
theorem V_table (c : Dev nD) :
    (V m c main_v22 : S768x4608.Idx → EReal)
      = tbl (m ((c : Thread nD τ).loc main_arg1)) (m ((c : Thread nD τ).loc main_arg2)) := by
  dsimp only [V, hostOps0]
  simp only [after_cons, after_nil]
  repeat (first
    | rw [nullary_result] | rw [unary_result] | rw [binary_result] | rw [reshape_result]
    | rw [Cert.LibNary3.nary3_result]
    | (rw [nullary_result_ne]; rotate_left; decide)
    | (rw [unary_result_ne]; rotate_left; decide)
    | (rw [binary_result_ne]; rotate_left; decide)
    | (rw [reshape_result_ne]; rotate_left; decide)
    | (rw [nary_result_ne]; rotate_left; decide))
  unfold tbl slabs slab tbl3
  rfl

end Cert.KernelIdeal.Hand

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.SketchBody.lean ====
/- The body's arithmetic, read at an index.

   The stored value of the first 1536 columns is the product of three matrix products of the same
   512 × 768 block with three 768 × 1536 slices: at `(p, c)` it is the product over the three slices
   of `∑ j, x (p, j) · n (j, c)`. (Each product is accumulated into zeros; the narrowing of the block
   and the reshaping of a slice to its own shape are the identity.) The stored value of the last 512
   columns is zero. -/
import proofs.«404943_j79413945303746_3_alg».proof.Proof.Gen.KernelIdeal.Skeleton
import proofs.«404943_j79413945303746_3_alg».proof.Proof.LibDot
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx

/-- One of the body's matrix products at `(p, c)`. -/
theorem product_apply (v0 : FVec Ideal S512x768 .f32) (v : FVec Ideal S768x1536 .bf16) (p : Fin 512) (c : Fin 1536) :
    (matmul (F := Ideal) dot_S512x768_S768x1536_S512x1536_1_0_0_1_n_n none (truncf .bf16 v0 bitsLt_bf16_f32)
        (shapeCast S768x1536 v shapeCasts_S768x1536_S768x1536) (constant S512x1536 .f32 0x00000000#32) (ix2 p c) : EReal)
      = ∑ j : Fin 768, v0 (ix2 p j) * v (ix2 j c) := by
  rw [shapeCast_self]
  exact Cert.LibDot.matmul_plain_apply (M := 512) (K := 768) (N := 1536)
    dot_S512x768_S768x1536_S512x1536_1_0_0_1_n_n rfl rfl rfl rfl rfl rfl none (truncf .bf16 v0 bitsLt_bf16_f32) v p c

/-- The first store's value at `(p, c)`: the product of the three matrix products. -/
theorem pay1_apply (v0 : Vec Ideal S512x768 .f32) (v2 v5 v9 : Vec Ideal S768x1536 .bf16) (p : Fin 512) (c : Fin 1536) :
    k0_pay1 (F := Ideal) v0 v2 v5 v9 (ix2 p c)
      = (∑ j : Fin 768, v0 (ix2 p j) * v2 (ix2 j c)) * (∑ j : Fin 768, v0 (ix2 p j) * v5 (ix2 j c))
          * (∑ j : Fin 768, v0 (ix2 p j) * v9 (ix2 j c)) := by
  rw [← product_apply v0 v2 p c, ← product_apply v0 v5 p c, ← product_apply v0 v9 p c]
  rfl

/-- The second store's value is zero everywhere. -/
theorem pay2_apply (i : S512x512.Idx) : k0_pay2 (F := Ideal) i = 0 := by
  show Ideal.ofBits .f32 0x00000000#32 = 0
  exact Ideal.ofBits_zero_f32

end Cert.KernelIdeal.Body

end
-- ==== Proof.SketchValue.lean ====
/- The idealized kernel's result: the output array after the run is the sketch of the arguments.

   At grid point `t` the body is handed rows `512·t … 512·t + 511` of the features and the whole
   table, and leaves in the output block, at `(p, q)` with `q < 1536`, the product over the three
   hash functions `k` of `∑ j, x (512·t + p, j) · table (j, 1536·k + q)`; the table's entry is the
   indicator of `h[k, j] = q` times the sign, so each factor is bucket `q` of row `512·t + p`; the
   last 512 columns are zero. That is block `t` of the sketch. The 128 blocks are the 128 bands of
   512 rows, which cover the array, so the array ends holding the sketch. -/
import proofs.«404943_j79413945303746_3_alg».proof.Proof.SketchFrameIdeal
import proofs.«404943_j79413945303746_3_alg».proof.Proof.SketchTable
import proofs.«404943_j79413945303746_3_alg».proof.Proof.SketchTableDef
import proofs.«404943_j79413945303746_3_alg».proof.Proof.SketchBody
import proofs.«404943_j79413945303746_3_alg».proof.Proof.SketchSpec
import Idealize.ShloMosaic.Lib.Pipeline.Value

set_option maxRecDepth 16384

noncomputable section

namespace Cert.KernelIdeal.Hand

open Cert.KernelIdeal Cert.KernelIdeal.Gen Cert.KernelIdeal.Table Cert.KernelIdeal.Body Cert.Sketch
open Idealize.ShloMosaic Idealize.ShloMosaic.TcCoe Idealize.ShloMosaic.ValueIdx Idealize.SL.Sem
open Idealize.ShloMosaic.Pipeline (Dat)

/-! ## The body's result at an index -/

theorem zeros2 : (![0, 0] : Fin 2 → Nat) = fun _ => 0 := funext fun a => by fin_cases a <;> rfl

/-- The whole-block load reads the block. -/
theorem ld_rX (x0 : Vec Ideal S512x768 .f32) : View.ld x0 rX = x0 :=
  View.ld_unit_zero (S := S512x768) zeros2 inb_S512x768_S512x768_0_0 x0

/-- A column slice of the table read at `(j, c)` is the table at column `offset + c`. -/
theorem ld_rN0 (x1 : Vec Ideal S768x4608 .bf16) (j : Fin 768) (c : Fin 1536) :
    View.ld x1 rN0 (ix2 j c) = x1 (ix2 j ⟨1536 * (0 : Fin 3).val + c.val, by have := c.isLt; show 1536 * 0 + c.val < 4608; omega⟩) :=
  congrArg x1 (funext fun a => Fin.ext (match a with
    | ⟨0, _⟩ => by show 0 + 1 * j.val = j.val; omega
    | ⟨1, _⟩ => by show 0 + 1 * c.val = 1536 * 0 + c.val; omega))
theorem ld_rN1 (x1 : Vec Ideal S768x4608 .bf16) (j : Fin 768) (c : Fin 1536) :
    View.ld x1 rN1 (ix2 j c) = x1 (ix2 j ⟨1536 * (1 : Fin 3).val + c.val, by have := c.isLt; show 1536 * 1 + c.val < 4608; omega⟩) :=
  congrArg x1 (funext fun a => Fin.ext (match a with
    | ⟨0, _⟩ => by show 0 + 1 * j.val = j.val; omega
    | ⟨1, _⟩ => by show 1536 + 1 * c.val = 1536 * 1 + c.val; omega))
theorem ld_rN2 (x1 : Vec Ideal S768x4608 .bf16) (j : Fin 768) (c : Fin 1536) :
    View.ld x1 rN2 (ix2 j c) = x1 (ix2 j ⟨1536 * (2 : Fin 3).val + c.val, by have := c.isLt; show 1536 * 2 + c.val < 4608; omega⟩) :=
  congrArg x1 (funext fun a => Fin.ext (match a with
    | ⟨0, _⟩ => by show 0 + 1 * j.val = j.val; omega
    | ⟨1, _⟩ => by show 3072 + 1 * c.val = 1536 * 2 + c.val; omega))

/-- One factor of the stored product: a block row times a table column. -/
def factor (x0 : Vec Ideal S512x768 .f32) (x1 : Vec Ideal S768x4608 .bf16) (k : Fin 3) (p : Fin 512) (q : Fin 1536) : EReal :=
  ∑ j : Fin 768, x0 (ix2 p j) * x1 (ix2 j ⟨1536 * k.val + q.val, by have := k.isLt; have := q.isLt; omega⟩)

/-- The body's result as one function of the block index: the first store's value in the first
    1536 columns, zero in the rest. -/
def outFun (P0 : Vec Ideal S512x1536 .f32) : S512x2048.Idx → EReal := fun y =>
  if hq : (y 1).val < 1536 then P0 (ix2 ⟨(y 0).val, idx2_lt0 y⟩ ⟨(y 1).val, hq⟩) else 0

/-- Each store's value is that function on the store's rectangle. -/
theorem outPieces_agree (P0 : Vec Ideal S512x1536 .f32) :
    ∀ pc ∈ outPieces P0 (k0_pay2 (F := Ideal)), ∀ x : pc.1.shape.Idx, pc.2 x = outFun P0 (pc.1.emb x) := by
  intro pc hpc x
  simp only [outPieces, List.mem_cons, List.not_mem_nil, or_false] at hpc
  rcases hpc with rfl | rfl
  · have hx : ¬ (((rO1 : Rect S512x2048).emb x) 1).val < 1536 := by
      show ¬ (1536 + 1 * (x 1).val < 1536); omega
    show k0_pay2 (F := Ideal) x = outFun P0 ((rO1 : Rect S512x2048).emb x)
    unfold outFun
    rw [dif_neg hx, pay2_apply]
  · have hx1 : (x 1).val < 1536 := (x 1).isLt
    have hx : (((rO0 : Rect S512x2048).emb x) 1).val < 1536 := by
      show 0 + 1 * (x 1).val < 1536; omega
    show P0 x = outFun P0 ((rO0 : Rect S512x2048).emb x)
    unfold outFun
    rw [dif_pos hx]
    refine congrArg P0 (funext fun a => Fin.ext ?_)
    match a with
    | ⟨0, _⟩ => show (x 0).val = 0 + 1 * (x 0).val; omega
    | ⟨1, _⟩ => show (x 1).val = 0 + 1 * (x 1).val; omega

/-- What the body leaves at `(p, q)`: the product of the three factors in the first 1536 columns,
    zero in the rest (the two stores agree with one function of the index, and cover the block). -/
theorem outBlk_apply (x0 : Vec Ideal S512x768 .f32) (x1 : Vec Ideal S768x4608 .bf16) (p : Fin 512) (q : Fin 2048) :
    outBlk x0 x1 (ix2 p q)
      = if hq : q.val < 1536 then factor x0 x1 0 p ⟨q.val, hq⟩ * factor x0 x1 1 p ⟨q.val, hq⟩ * factor x0 x1 2 p ⟨q.val, hq⟩
        else 0 := by
  unfold outBlk
  rw [View.canon_apply_of_pieces (outFun _) _ (outPieces_agree _) (ix2 p q) (outCover _ _ (ix2 p q))]
  show (if hq : q.val < 1536 then k0_pay1 (F := Ideal) (View.ld x0 rX) (View.ld x1 rN0) (View.ld x1 rN1) (View.ld x1 rN2)
      (ix2 ⟨p.val, p.isLt⟩ ⟨q.val, hq⟩) else 0) = _
  by_cases hq : q.val < 1536
  · rw [dif_pos hq, dif_pos hq, pay1_apply]
    unfold factor
    refine congrArg₂ (· * ·) (congrArg₂ (· * ·) (Finset.sum_congr rfl fun j _ => ?_) (Finset.sum_congr rfl fun j _ => ?_))
      (Finset.sum_congr rfl fun j _ => ?_)
    · exact congrArg₂ (· * ·) (congrFun (ld_rX x0) _) (ld_rN0 x1 j ⟨q.val, hq⟩)
    · exact congrArg₂ (· * ·) (congrFun (ld_rX x0) _) (ld_rN1 x1 j ⟨q.val, hq⟩)
    · exact congrArg₂ (· * ·) (congrFun (ld_rX x0) _) (ld_rN2 x1 j ⟨q.val, hq⟩)
  · rw [dif_neg hq, dif_neg hq]

/-- The sketch at `(b, q)`. -/
theorem sketch_apply (x : SX.Idx → EReal) (h sg : SH.Idx → BitVec 32) (b : Fin 65536) (q : Fin 2048) :
    sketch x h sg (ix2 b q)
      = if hq : q.val < 1536 then bucket x h sg 0 b ⟨q.val, hq⟩ * bucket x h sg 1 b ⟨q.val, hq⟩ * bucket x h sg 2 b ⟨q.val, hq⟩
        else 0 := rfl

/-! ## The windows' blocks -/

variable (m : (ℓ : Loc nD τ sig) → Buf (Elt Ideal) ℓ) (ρ : Dev nD → PrngReg)

/-- The printed index maps over the grid: the features and the output move down one block per
    point, the table stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 128 := by have h : cfg0.N = 128 := N_0; have := t.isLt; omega

/-- The features' block at point `t` is rows `512·t …` of the argument as launched. -/
theorem iblk0_apply (c : Dev nD) (t : Fin cfg0.N) (p : Fin 512) (j : Fin 768) :
    iblk m c 0 t (ix2 p j)
      = m ((c : Thread nD τ).loc main_arg0) (ix2 ⟨512 * t.val + p.val, by have := t_lt t; have := p.isLt; omega⟩ j) := by
  obtain ⟨e00, e01, -, -, -, -⟩ := idx_facts t
  show V m c main_arg0 (((cfg0.win 0).blk t).view.emb (ix2 p j)) = _
  rw [V_main_arg0]
  refine congrArg _ (funext fun a => Fin.ext ?_)
  match a with
  | ⟨0, _⟩ => show win0_0.index t (0 : Fin 2) * 512 + 1 * p.val = 512 * t.val + p.val; rw [e00]; omega
  | ⟨1, _⟩ => show win0_0.index t (1 : Fin 2) * 768 + 1 * j.val = j.val; rw [e01]; omega

/-- The table's block at every point is the whole table of the launched hash indices and signs. -/
theorem iblk1_apply (c : Dev nD) (t : Fin cfg0.N) (j : Fin 768) (col : Fin 4608) :
    iblk m c 1 t (ix2 j col)
      = tbl (m ((c : Thread nD τ).loc main_arg1)) (m ((c : Thread nD τ).loc main_arg2)) (ix2 j col) := by
  obtain ⟨-, -, e10, e11, -, -⟩ := idx_facts t
  show V m c main_v22 (((cfg0.win 1).blk t).view.emb (ix2 j col)) = _
  rw [V_table]
  refine congrArg _ (funext fun a => Fin.ext ?_)
  match a with
  | ⟨0, _⟩ => show win0_1.index t (0 : Fin 2) * 768 + 1 * j.val = j.val; rw [e10]; omega
  | ⟨1, _⟩ => show win0_1.index t (1 : Fin 2) * 4608 + 1 * col.val = col.val; rw [e11]; omega

/-- A factor over the blocks at point `t` is a bucket of row `512·t + p`. -/
theorem factor_eq (c : Dev nD) (t : Fin cfg0.N) (k : Fin 3) (p : Fin 512) (q : Fin 1536) :
    factor (iblk m c 0 t) (iblk m c 1 t) k p q
      = bucket (m ((c : Thread nD τ).loc main_arg0)) (m ((c : Thread nD τ).loc main_arg1)) (m ((c : Thread nD τ).loc main_arg2))
          k ⟨512 * t.val + p.val, by have := t_lt t; have := p.isLt; omega⟩ q := by
  rw [← bucket_onehot]
  unfold factor
  refine Finset.sum_congr rfl fun j _ => ?_
  rw [iblk0_apply m c t p j, iblk1_apply m c t j _, tbl_apply _ _ k j q]

/-! ## What a point writes back, the cover, the final array -/

/-- Point `t` writes back block `t` of the sketch. -/
theorem flushed_eq (c : Dev nD) (t : Fin cfg0.N) :
    (dats m 0 c).flushed 2 t = ((cfg0.win 2).blk t).view.read (Elt Ideal)
      (sketch (m ((c : Thread nD τ).loc main_arg0)) (m ((c : Thread nD τ).loc main_arg1)) (m ((c : Thread nD τ).loc main_arg2))) := by
  show (cfg0.win 2).cut (grid0.coords t) ((dats m 0 c).after 2 t) = _
  rw [after0_2]
  obtain ⟨-, -, -, -, e20, e21⟩ := idx_facts t
  funext y
  obtain ⟨p, q, rfl⟩ : ∃ (p : Fin 512) (q : Fin 2048), y = ix2 p q := ⟨y 0, y 1, eq_ix2 y⟩
  show outBlk (iblk m c 0 t) (iblk m c 1 t) (ix2 p q)
    = sketch (m ((c : Thread nD τ).loc main_arg0)) (m ((c : Thread nD τ).loc main_arg1)) (m ((c : Thread nD τ).loc main_arg2))
        (((cfg0.win 2).blk t).view.emb (ix2 p q))
  have he : ((cfg0.win 2).blk t).view.emb (ix2 p q)
      = ix2 (⟨512 * t.val + p.val, by have := t_lt t; have := p.isLt; omega⟩ : Fin 65536) q := by
    funext a; apply Fin.ext
    match a with
    | ⟨0, _⟩ => show win0_2.index t (0 : Fin 2) * 512 + 1 * p.val = 512 * t.val + p.val; rw [e20]; omega
    | ⟨1, _⟩ => show win0_2.index t (1 : Fin 2) * 2048 + 1 * q.val = q.val; rw [e21]; omega
  rw [he, outBlk_apply (iblk m c 0 t) (iblk m c 1 t) p q, sketch_apply]
  by_cases hq : q.val < 1536
  · rw [dif_pos hq, dif_pos hq, factor_eq m c t 0 p ⟨q.val, hq⟩, factor_eq m c t 1 p ⟨q.val, hq⟩, factor_eq m c t 2 p ⟨q.val, hq⟩]
  · rw [dif_neg hq, dif_neg hq]

/-- An index of the output array is in point `t`'s block iff each coordinate is in the block's range. -/
theorem mem_blk2 (t : Fin cfg0.N) (i : S65536x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v23).slice (win0_2.rect t)).set ↔ _
  rw [View.set_slice_whole, Rect.mem_set_unit]
  exact Iff.rfl

/-- Row `r` is in the block of point `r / 512`. -/
theorem cover (i : S65536x2048.Idx) :
    ∃ t : Fin cfg0.N, (cfg0.win 2).flush t = true ∧ i ∈ ((cfg0.win 2).blk t).view.set := by
  have hN : cfg0.N = 128 := N_0
  have hi0 : (i 0).val < 65536 := (i 0).isLt
  have hi1 : (i 1).val < 2048 := (i 1).isLt
  let t : Fin cfg0.N := ⟨(i 0).val / 512, by omega⟩
  have ht : t.val = (i 0).val / 512 := rfl
  obtain ⟨-, -, -, -, e20, e21⟩ := idx_facts t
  refine ⟨t, flush0_2 t, (mem_blk2 t i).mpr fun a => ?_⟩
  match a with
  | ⟨0, _⟩ =>
    show win0_2.index t (0 : Fin 2) * 512 ≤ (i 0).val ∧ (i 0).val < win0_2.index t (0 : Fin 2) * 512 + 512
    rw [e20, ht]; omega
  | ⟨1, _⟩ =>
    show win0_2.index t (1 : Fin 2) * 2048 ≤ (i 1).val ∧ (i 1).val < win0_2.index t (1 : Fin 2) * 2048 + 2048
    rw [e21]; omega

/-- The output array after the run is the sketch of the arguments as launched. -/
theorem final (c : Dev nD) :
    (dats m 0 c).arrAt 2 cfg0.N
      = sketch (m ((c : Thread nD τ).loc main_arg0)) (m ((c : Thread nD τ).loc main_arg1)) (m ((c : Thread nD τ).loc main_arg2)) :=
  (dats m 0 c).arrAt_eq_of_cover 2 _ (fun t _ => flushed_eq m c t) cover

/-- The run, read: the result is the sketch, the arguments are unchanged. -/
theorem run : θ_run defs (onTc (τ := τ) (main (F := Ideal))) ⟨m, fun _ => 0, ρ⟩ fun r => ∀ c : Dev nD,
      r.2.mem ((c : Thread nD τ).loc main_v23)
        = sketch (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Hand

end
-- ==== Proof.LibScatterCols.lean ====
/-
  A scatter-add that adds COLUMNS of the updates into columns of the operand, read at an index.

  What `operand.at[:, idx].add(updates)` lowers to for an operand `[B, N]`, a vector of `K` column indices and updates
  `[B, K]`: `stablehlo.scatter` with an `add` body and the dimension numbers update_window_dims `[0]`,
  inserted_window_dims `[1]`, scatter_dims_to_operand_dims `[1]`, index_vector_dim `1` over the indices as `[K, 1]`.
  Update element `(b, k)` lands at operand element `(b, idx[k, 0])`, the index read as a SIGNED integer and not
  clamped: an update whose column index is outside `[0, N)` is dropped. So the result at `(b, c)` is the operand there
  plus the sum of the updates `(b, k)` over the `k` whose index is `c` (`scatterAdd_cols_apply`).

  `colsDims` is that record of dimension numbers; `start_row` / `start_col` / `window_row` / `window_col` compute the
  window's start and the window coordinate on the two operand axes; `resultIdx?_cols` says where an update lands.
-/
import Idealize.ShloMosaic.Lib.ValueIdx

noncomputable section

open scoped BigOperators

namespace Cert.LibScatterCols

open Idealize.ShloMosaic Idealize.ShloMosaic.ValueIdx

/-- The dimension numbers of a column scatter for an operand `[B, N]`, scatter indices `[K, 1]` and updates `[B, K]`;
    their conditions `wf` are decided on a program's literal shapes. -/
abbrev colsDims (B N K : Nat) (wf : ScatterDims.WF ⟨2, ![B, N]⟩ ⟨2, ![K, 1]⟩ ⟨2, ![B, K]⟩ [0] [1] [1] 1) :
    ScatterDims ⟨2, ![B, N]⟩ ⟨2, ![K, 1]⟩ ⟨2, ![B, K]⟩ where
  updateWindowDims := [0]
  insertedWindowDims := [1]
  scatterDimsToOperandDims := [1]
  indexVectorDim := 1
  wf := wf

variable {B N K w : Nat} (wf : ScatterDims.WF ⟨2, ![B, N]⟩ ⟨2, ![K, 1]⟩ ⟨2, ![B, K]⟩ [0] [1] [1] 1)

/-- The row axis is not a scattered axis: the window starts at row 0. -/
theorem start_row (idx : IVec ⟨2, ![K, 1]⟩ w) (j : (⟨2, ![B, K]⟩ : Shape).Idx) :
    (colsDims B N K wf).start j idx 0 = 0 := by
  unfold ScatterDims.start
  rw [dif_neg (show ¬ (0 : Fin 2) ∈ ([1] : List (Fin 2)) from by decide)]

/-- On the column axis the window of update `(a, k)` starts at the `k`-th scatter index, read signed. -/
theorem start_col (idx : IVec ⟨2, ![K, 1]⟩ w) (a : Fin B) (k : Fin K) :
    (colsDims B N K wf).start (ix2 a k) idx 1 = (idx (ix2 k ⟨0, Nat.one_pos⟩)).toInt := by
  unfold ScatterDims.start
  rw [dif_pos (show (1 : Fin 2) ∈ (colsDims B N K wf).scatterDimsToOperandDims from List.mem_singleton.mpr rfl)]
  congr 2
  funext b; refine Fin.ext ?_
  match b with
  | ⟨0, _⟩ => rfl
  | ⟨1, _⟩ => rfl

/-- The row axis is the updates' one window axis: the window coordinate of update `(a, k)` is `a`. -/
theorem window_row (a : Fin B) (k : Fin K) : (colsDims B N K wf).window (ix2 a k) 0 = a.val := by
  unfold ScatterDims.window
  have h : (0 : Fin 2) ∈ (colsDims B N K wf).sKept := by
    show (0 : Fin 2) ∈ (List.finRange 2).filter (· ∉ ([1] : List (Fin 2)))
    decide
  rw [dif_pos h]
  rfl

/-- The column axis is inserted: its window coordinate is 0. -/
theorem window_col (j : (⟨2, ![B, K]⟩ : Shape).Idx) : (colsDims B N K wf).window j 1 = 0 := by
  unfold ScatterDims.window
  have h : ¬ (1 : Fin 2) ∈ (colsDims B N K wf).sKept := by
    show ¬ (1 : Fin 2) ∈ (List.finRange 2).filter (· ∉ ([1] : List (Fin 2)))
    decide
  rw [dif_neg h]

/-- WHERE AN UPDATE LANDS: update `(a, k)` lands at `(b, c)` exactly when `a = b` and the `k`-th scatter index, read
    signed, is `c`. -/
theorem resultIdx?_cols (idx : IVec ⟨2, ![K, 1]⟩ w) (a : Fin B) (k : Fin K) (b : Fin B) (c : Fin N) :
    (colsDims B N K wf).resultIdx? (ix2 a k) idx = some (ix2 b c) ↔
      a = b ∧ (idx (ix2 k ⟨0, Nat.one_pos⟩)).toInt = (c.val : Int) := by
  have ha : a.val < B := a.isLt
  have hc : c.val < N := c.isLt
  unfold ScatterDims.resultIdx?
  constructor
  · intro h
    split at h
    · rename_i hh
      have hf := Option.some.inj h
      have h0 := congrArg Fin.val (congrFun hf 0)
      have h1 := congrArg Fin.val (congrFun hf 1)
      have hh1 := (hh 1).1
      simp only [start_row, start_col, window_row, window_col] at h0 h1 hh1
      refine ⟨Fin.ext ?_, ?_⟩
      · change (0 + (a.val : Int)).toNat = b.val at h0
        omega
      · change ((idx (ix2 k ⟨0, Nat.one_pos⟩)).toInt + ((0 : Nat) : Int)).toNat = c.val at h1
        omega
    · exact absurd h (by simp)
  · rintro ⟨rfl, hi⟩
    have hall : ∀ x : Fin 2, 0 ≤ (colsDims B N K wf).start (ix2 a k) idx x + ((colsDims B N K wf).window (ix2 a k) x : Int) ∧
        (colsDims B N K wf).start (ix2 a k) idx x + ((colsDims B N K wf).window (ix2 a k) x : Int)
          < ((⟨2, ![B, N]⟩ : Shape).size x : Int) := by
      intro x
      match x with
      | ⟨0, _⟩ =>
        rw [show (⟨0, by omega⟩ : Fin 2) = 0 from rfl, start_row, window_row]
        change 0 ≤ 0 + (a.val : Int) ∧ 0 + (a.val : Int) < (B : Int)
        omega
      | ⟨1, _⟩ =>
        rw [show (⟨1, by omega⟩ : Fin 2) = 1 from rfl, start_col, window_col, hi]
        change 0 ≤ (c.val : Int) + ((0 : Nat) : Int) ∧ (c.val : Int) + ((0 : Nat) : Int) < (N : Int)
        omega
    rw [dif_pos hall]
    congr 1
    funext x; refine Fin.ext ?_
    match x with
    | ⟨0, _⟩ =>
      show ((colsDims B N K wf).start (ix2 a k) idx 0 + ((colsDims B N K wf).window (ix2 a k) 0 : Int)).toNat = a.val
      rw [start_row, window_row]; omega
    | ⟨1, _⟩ =>
      show ((colsDims B N K wf).start (ix2 a k) idx 1 + ((colsDims B N K wf).window (ix2 a k) 1 : Int)).toNat = c.val
      rw [start_col, window_col, hi]; omega

/-- THE COLUMN SCATTER-ADD READ AT `(b, c)`: the operand there plus the updates of row `b` whose scatter index is `c`. -/
theorem scatterAdd_cols_apply (x : (⟨2, ![B, N]⟩ : Shape).Idx → EReal) (idx : IVec ⟨2, ![K, 1]⟩ w)
    (upd : (⟨2, ![B, K]⟩ : Shape).Idx → EReal) (b : Fin B) (c : Fin N) :
    Ideal.hostScatterAdd (colsDims B N K wf) x idx upd (ix2 b c) =
      x (ix2 b c) + ∑ k : Fin K, if (idx (ix2 k ⟨0, Nat.one_pos⟩)).toInt = (c.val : Int) then upd (ix2 b k) else 0 := by
  unfold Ideal.hostScatterAdd
  congr 1
  rw [Finset.sum_filter, sum_idx2, Finset.sum_eq_single b]
  · refine Finset.sum_congr rfl fun k _ => ?_
    by_cases h : (idx (ix2 k ⟨0, Nat.one_pos⟩)).toInt = (c.val : Int)
    · rw [if_pos h, if_pos ((resultIdx?_cols wf idx b k b c).mpr ⟨rfl, h⟩)]
    · rw [if_neg h, if_neg (fun h' => h ((resultIdx?_cols wf idx b k b c).mp h').2)]
  · intro a _ hab
    refine Finset.sum_eq_zero fun k _ => ?_
    rw [if_neg (fun h' => hab ((resultIdx?_cols wf idx a k b c).mp h').1)]
  · intro h; exact absurd (Finset.mem_univ b) h

end Cert.LibScatterCols

end
-- ==== Proof.SketchRef.lean ====
/-
  The reference program computes the count sketch.

  The reference builds, for each of the three hash functions, the features times that function's row of signs, and adds
  them by a column scatter-add into a zero array of 1536 buckets a row; it multiplies the three bucket arrays (after a
  leading factor of one) and pads each row with 512 zero columns. Read at an index: a scatter-add of columns is the sum
  of the updates whose scatter index is the column; with no hash index negative the reference's normalisation of a
  negative index (add the bucket count) leaves every index as it is; so each scatter is the bucket of its hash function,
  and the padded product is the sketch.
-/
import proofs.«404943_j79413945303746_3_alg».proof.Proof.SketchSpec
import proofs.«404943_j79413945303746_3_alg».proof.Proof.Gen.ReferenceIdeal.Read
import proofs.«404943_j79413945303746_3_alg».proof.Proof.LibScatterCols
import Idealize.ShloMosaic.Lib.IdealHost

noncomputable section

open scoped BigOperators

namespace Cert.Sketch.Ref

open Idealize.ShloMosaic Idealize.ShloMosaic.ValueIdx Cert.ReferenceIdeal Cert.ReferenceIdeal.Read Cert.LibScatterCols
  Cert.Sketch

/-! ### The sign table and the index normalisation -/

/-- The sign table as the program computes it: `2·s − 1`, converted. -/
theorem sign_apply (x2 : (⟨Cert.ReferenceIdeal.S3x768, .i32⟩ : BufTy).Contents (Elt Ideal)) (k : Fin 3) (j : Fin 768) :
    val_main_v4 (F := Ideal) x2 (ix2 k j) = sgn x2 k j := by
  rw [val_main_v4_apply, val_main_v3_apply, val_main_v1_apply, val_main_v0_apply, val_main_v2_apply,
    val_main_c_apply, val_main_c_0_apply]
  rfl

/-- An index that is not negative is left alone by "add the bucket count where negative". -/
theorem norm_nonneg (h : BitVec 32) (hp : 0 ≤ h.toInt) :
    Scalar.select (IntOp.cmpi .slt h 0#32) (IntOp.addi h 1536#32) h = h := by
  have h0 : (0#32 : BitVec 32).toInt = 0 := by decide
  have e : IntOp.cmpi .slt h 0#32 = 0#1 := by
    show BitVec.ofBool (h.slt 0#32) = 0#1
    rw [BitVec.slt, h0, decide_eq_false (by omega)]
    rfl
  rw [e, select_zero]

/-! ### Hash function 0 -/

/-- The first row of the sign table, broadcast down the rows of the features. -/
theorem signs0_apply (x2 : (⟨Cert.ReferenceIdeal.S3x768, .i32⟩ : BufTy).Contents (Elt Ideal)) (b : Fin 65536) (j : Fin 768) :
    val_main_v9 (F := Ideal) x2 (ix2 b j) = sgn x2 0 j := by
  rw [val_main_v9_apply, val_main_v8_apply, val_main_v7_apply, val_main_v6_apply, ← sign_apply]
  congr 1
  funext a; refine Fin.ext ?_
  match a with
  | ⟨0, _⟩ => rfl
  | ⟨1, _⟩ => exact Nat.mod_eq_of_lt j.isLt

/-- The updates of the first scatter: the features times their signs. -/
theorem upd0_apply (x0 : (⟨Cert.ReferenceIdeal.S65536x768, .f32⟩ : BufTy).Contents (Elt Ideal)) (x2 : (⟨Cert.ReferenceIdeal.S3x768, .i32⟩ : BufTy).Contents (Elt Ideal)) (b : Fin 65536) (j : Fin 768) :
    val_main_v10 (F := Ideal) x0 x2 (ix2 b j) = x0 (ix2 b j) * sgn x2 0 j := by
  rw [val_main_v10_apply, signs0_apply]; rfl

/-- The first row of the hash table, as a vector. -/
theorem hash0_apply (x1 : (⟨Cert.ReferenceIdeal.S3x768, .i32⟩ : BufTy).Contents (Elt Ideal)) (j : Fin 768) :
    val_main_v13 (F := Ideal) x1 (ix1 j) = x1 (ix2 0 j) := by
  rw [val_main_v13_apply, val_main_v12_apply]
  congr 1
  funext a; refine Fin.ext ?_
  match a with
  | ⟨0, _⟩ => rfl
  | ⟨1, _⟩ => exact Nat.mod_eq_of_lt j.isLt

/-- The scatter indices of the first scatter: the hash indices themselves, none of them negative. -/
theorem idx0_apply (x1 : (⟨Cert.ReferenceIdeal.S3x768, .i32⟩ : BufTy).Contents (Elt Ideal)) (hpos : ∀ i, 0 ≤ (x1 i).toInt) (j : Fin 768) :
    val_main_v19 (F := Ideal) x1 (ix2 j ⟨0, Nat.one_pos⟩) = x1 (ix2 0 j) := by
  have e : idx_main_v19 (ix2 j ⟨0, Nat.one_pos⟩) = ix1 j := by
    funext a; match a with | ⟨0, _⟩ => rfl
  rw [val_main_v19_apply, e, val_main_v18_apply, val_main_v15_apply, val_main_v17_apply, val_main_v14_apply,
    val_main_v16_apply, val_main_c_2_apply, val_main_c_3_apply, hash0_apply]
  exact norm_nonneg _ (hpos _)

/-- The first scatter-add computes the buckets of hash function 0. -/
theorem bucket0_apply (x0 : (⟨Cert.ReferenceIdeal.S65536x768, .f32⟩ : BufTy).Contents (Elt Ideal)) (x1 x2 : (⟨Cert.ReferenceIdeal.S3x768, .i32⟩ : BufTy).Contents (Elt Ideal)) (hpos : ∀ i, 0 ≤ (x1 i).toInt)
    (b : Fin 65536) (c : Fin 1536) :
    val_main_v20 (F := Ideal) x0 x1 x2 (ix2 b c) = bucket x0 x1 x2 0 b c := by
  show Ideal.hostScatterAdd (colsDims 65536 1536 768 Facts₀.scatter_S65536x1536_S768x1_S65536x768_0_1_1_1_wf)
    (val_main_v11 (F := Ideal)) (val_main_v19 (F := Ideal) x1) (val_main_v10 (F := Ideal) x0 x2) (ix2 b c) = _
  rw [scatterAdd_cols_apply, val_main_v11_apply, val_main_cst_1_apply, Ideal.ofBits_def, Ideal.ofBits_zero_f32, zero_add]
  unfold bucket
  refine Finset.sum_congr rfl fun j _ => ?_
  rw [idx0_apply x1 hpos, upd0_apply]

/-! ### Hash function 1 -/

/-- The second row of the sign table, broadcast down the rows of the features. -/
theorem signs1_apply (x2 : (⟨Cert.ReferenceIdeal.S3x768, .i32⟩ : BufTy).Contents (Elt Ideal)) (b : Fin 65536) (j : Fin 768) :
    val_main_v25 (F := Ideal) x2 (ix2 b j) = sgn x2 1 j := by
  rw [val_main_v25_apply, val_main_v24_apply, val_main_v23_apply, val_main_v22_apply, ← sign_apply]
  congr 1
  funext a; refine Fin.ext ?_
  match a with
  | ⟨0, _⟩ => rfl
  | ⟨1, _⟩ => exact Nat.mod_eq_of_lt j.isLt

/-- The updates of the second scatter: the features times their signs. -/
theorem upd1_apply (x0 : (⟨Cert.ReferenceIdeal.S65536x768, .f32⟩ : BufTy).Contents (Elt Ideal)) (x2 : (⟨Cert.ReferenceIdeal.S3x768, .i32⟩ : BufTy).Contents (Elt Ideal)) (b : Fin 65536) (j : Fin 768) :
    val_main_v26 (F := Ideal) x0 x2 (ix2 b j) = x0 (ix2 b j) * sgn x2 1 j := by
  rw [val_main_v26_apply, signs1_apply]; rfl

/-- The second row of the hash table, as a vector. -/
theorem hash1_apply (x1 : (⟨Cert.ReferenceIdeal.S3x768, .i32⟩ : BufTy).Contents (Elt Ideal)) (j : Fin 768) :
    val_main_v29 (F := Ideal) x1 (ix1 j) = x1 (ix2 1 j) := by
  rw [val_main_v29_apply, val_main_v28_apply]
  congr 1
  funext a; refine Fin.ext ?_
  match a with
  | ⟨0, _⟩ => rfl
  | ⟨1, _⟩ => exact Nat.mod_eq_of_lt j.isLt

/-- The scatter indices of the second scatter: the hash indices themselves, none of them negative. -/
theorem idx1_apply (x1 : (⟨Cert.ReferenceIdeal.S3x768, .i32⟩ : BufTy).Contents (Elt Ideal)) (hpos : ∀ i, 0 ≤ (x1 i).toInt) (j : Fin 768) :
    val_main_v35 (F := Ideal) x1 (ix2 j ⟨0, Nat.one_pos⟩) = x1 (ix2 1 j) := by
  have e : idx_main_v35 (ix2 j ⟨0, Nat.one_pos⟩) = ix1 j := by
    funext a; match a with | ⟨0, _⟩ => rfl
  rw [val_main_v35_apply, e, val_main_v34_apply, val_main_v31_apply, val_main_v33_apply, val_main_v30_apply,
    val_main_v32_apply, val_main_c_5_apply, val_main_c_6_apply, hash1_apply]
  exact norm_nonneg _ (hpos _)

/-- The second scatter-add computes the buckets of hash function 1. -/
theorem bucket1_apply (x0 : (⟨Cert.ReferenceIdeal.S65536x768, .f32⟩ : BufTy).Contents (Elt Ideal)) (x1 x2 : (⟨Cert.ReferenceIdeal.S3x768, .i32⟩ : BufTy).Contents (Elt Ideal)) (hpos : ∀ i, 0 ≤ (x1 i).toInt)
    (b : Fin 65536) (c : Fin 1536) :
    val_main_v36 (F := Ideal) x0 x1 x2 (ix2 b c) = bucket x0 x1 x2 1 b c := by
  show Ideal.hostScatterAdd (colsDims 65536 1536 768 Facts₀.scatter_S65536x1536_S768x1_S65536x768_0_1_1_1_wf)
    (val_main_v27 (F := Ideal)) (val_main_v35 (F := Ideal) x1) (val_main_v26 (F := Ideal) x0 x2) (ix2 b c) = _
  rw [scatterAdd_cols_apply, val_main_v27_apply, val_main_cst_4_apply, Ideal.ofBits_def, Ideal.ofBits_zero_f32, zero_add]
  unfold bucket
  refine Finset.sum_congr rfl fun j _ => ?_
  rw [idx1_apply x1 hpos, upd1_apply]

/-! ### Hash function 2 -/

/-- The third row of the sign table, broadcast down the rows of the features. -/
theorem signs2_apply (x2 : (⟨Cert.ReferenceIdeal.S3x768, .i32⟩ : BufTy).Contents (Elt Ideal)) (b : Fin 65536) (j : Fin 768) :
    val_main_v41 (F := Ideal) x2 (ix2 b j) = sgn x2 2 j := by
  rw [val_main_v41_apply, val_main_v40_apply, val_main_v39_apply, val_main_v38_apply, ← sign_apply]
  congr 1
  funext a; refine Fin.ext ?_
  match a with
  | ⟨0, _⟩ => rfl
  | ⟨1, _⟩ => exact Nat.mod_eq_of_lt j.isLt

/-- The updates of the third scatter: the features times their signs. -/
theorem upd2_apply (x0 : (⟨Cert.ReferenceIdeal.S65536x768, .f32⟩ : BufTy).Contents (Elt Ideal)) (x2 : (⟨Cert.ReferenceIdeal.S3x768, .i32⟩ : BufTy).Contents (Elt Ideal)) (b : Fin 65536) (j : Fin 768) :
    val_main_v42 (F := Ideal) x0 x2 (ix2 b j) = x0 (ix2 b j) * sgn x2 2 j := by
  rw [val_main_v42_apply, signs2_apply]; rfl

/-- The third row of the hash table, as a vector. -/
theorem hash2_apply (x1 : (⟨Cert.ReferenceIdeal.S3x768, .i32⟩ : BufTy).Contents (Elt Ideal)) (j : Fin 768) :
    val_main_v45 (F := Ideal) x1 (ix1 j) = x1 (ix2 2 j) := by
  rw [val_main_v45_apply, val_main_v44_apply]
  congr 1
  funext a; refine Fin.ext ?_
  match a with
  | ⟨0, _⟩ => rfl
  | ⟨1, _⟩ => exact Nat.mod_eq_of_lt j.isLt

/-- The scatter indices of the third scatter: the hash indices themselves, none of them negative. -/
theorem idx2_apply (x1 : (⟨Cert.ReferenceIdeal.S3x768, .i32⟩ : BufTy).Contents (Elt Ideal)) (hpos : ∀ i, 0 ≤ (x1 i).toInt) (j : Fin 768) :
    val_main_v51 (F := Ideal) x1 (ix2 j ⟨0, Nat.one_pos⟩) = x1 (ix2 2 j) := by
  have e : idx_main_v51 (ix2 j ⟨0, Nat.one_pos⟩) = ix1 j := by
    funext a; match a with | ⟨0, _⟩ => rfl
  rw [val_main_v51_apply, e, val_main_v50_apply, val_main_v47_apply, val_main_v49_apply, val_main_v46_apply,
    val_main_v48_apply, val_main_c_8_apply, val_main_c_9_apply, hash2_apply]
  exact norm_nonneg _ (hpos _)

/-- The third scatter-add computes the buckets of hash function 2. -/
theorem bucket2_apply (x0 : (⟨Cert.ReferenceIdeal.S65536x768, .f32⟩ : BufTy).Contents (Elt Ideal)) (x1 x2 : (⟨Cert.ReferenceIdeal.S3x768, .i32⟩ : BufTy).Contents (Elt Ideal)) (hpos : ∀ i, 0 ≤ (x1 i).toInt)
    (b : Fin 65536) (c : Fin 1536) :
    val_main_v52 (F := Ideal) x0 x1 x2 (ix2 b c) = bucket x0 x1 x2 2 b c := by
  show Ideal.hostScatterAdd (colsDims 65536 1536 768 Facts₀.scatter_S65536x1536_S768x1_S65536x768_0_1_1_1_wf)
    (val_main_v43 (F := Ideal)) (val_main_v51 (F := Ideal) x1) (val_main_v42 (F := Ideal) x0 x2) (ix2 b c) = _
  rw [scatterAdd_cols_apply, val_main_v43_apply, val_main_cst_7_apply, Ideal.ofBits_def, Ideal.ofBits_zero_f32, zero_add]
  unfold bucket
  refine Finset.sum_congr rfl fun j _ => ?_
  rw [idx2_apply x1 hpos, upd2_apply]

/-! ### The product and the padding -/

/-- The product of the three bucket arrays (the leading factor is one). -/
theorem prod_apply (x0 : (⟨Cert.ReferenceIdeal.S65536x768, .f32⟩ : BufTy).Contents (Elt Ideal)) (x1 x2 : (⟨Cert.ReferenceIdeal.S3x768, .i32⟩ : BufTy).Contents (Elt Ideal)) (hpos : ∀ i, 0 ≤ (x1 i).toInt)
    (b : Fin 65536) (c : Fin 1536) :
    val_main_v53 (F := Ideal) x0 x1 x2 (ix2 b c)
      = bucket x0 x1 x2 0 b c * bucket x0 x1 x2 1 b c * bucket x0 x1 x2 2 b c := by
  rw [val_main_v53_apply, val_main_v37_apply, val_main_v21_apply, val_main_v5_apply, val_main_cst_apply,
    bucket0_apply x0 x1 x2 hpos, bucket1_apply x0 x1 x2 hpos, bucket2_apply x0 x1 x2 hpos,
    Ideal.ofBits_def, Ideal.ofBits_one_f32]
  simp only [Ideal.mulf_def, one_mul]

/-- The padded array read at an index: the product in the first 1536 columns, zero in the other 512. -/
theorem pad_apply (x0 : (⟨Cert.ReferenceIdeal.S65536x768, .f32⟩ : BufTy).Contents (Elt Ideal)) (x1 x2 : (⟨Cert.ReferenceIdeal.S3x768, .i32⟩ : BufTy).Contents (Elt Ideal)) (i : SO.Idx) :
    val_main_v54 (F := Ideal) x0 x1 x2 i
      = if hc : (i 1).val < 1536 then
          val_main_v53 (F := Ideal) x0 x1 x2 (ix2 ⟨(i 0).val, idx2_lt0 i⟩ ⟨(i 1).val, hc⟩)
        else 0 := by
  unfold val_main_v54 pad
  split
  · rename_i hin
    have h1 := (hin 1).2.2
    change ((i 1).val - 0) / (0 + 1) < 1536 at h1
    rw [Nat.sub_zero, Nat.zero_add, Nat.div_one] at h1
    rw [dif_pos h1]
    congr 1
    funext a; refine Fin.ext ?_
    match a with
    | ⟨0, _⟩ => show ((i 0).val - 0) / (0 + 1) = (i 0).val; rw [Nat.sub_zero, Nat.zero_add, Nat.div_one]
    | ⟨1, _⟩ => show ((i 1).val - 0) / (0 + 1) = (i 1).val; rw [Nat.sub_zero, Nat.zero_add, Nat.div_one]
  · rename_i hout
    have hc : ¬ (i 1).val < 1536 := by
      intro hc
      apply hout
      intro a
      match a with
      | ⟨0, _⟩ =>
        show 0 ≤ (i 0).val ∧ ((i 0).val - 0) % (0 + 1) = 0 ∧ ((i 0).val - 0) / (0 + 1) < 65536
        rw [Nat.sub_zero, Nat.zero_add, Nat.div_one, Nat.mod_one]
        exact ⟨Nat.zero_le _, rfl, idx2_lt0 i⟩
      | ⟨1, _⟩ =>
        show 0 ≤ (i 1).val ∧ ((i 1).val - 0) % (0 + 1) = 0 ∧ ((i 1).val - 0) / (0 + 1) < 1536
        rw [Nat.sub_zero, Nat.zero_add, Nat.div_one, Nat.mod_one]
        exact ⟨Nat.zero_le _, rfl, hc⟩
    rw [dif_neg hc, val_main_call0_v0_apply, val_main_c_10_apply]
    show (((0#32 : BitVec 32).toInt : ℝ) : EReal) = 0
    rw [show (0#32 : BitVec 32).toInt = 0 by decide]
    norm_cast

/-- THE REFERENCE IS THE SKETCH, given that no hash index is negative. -/
theorem ref_is_sketch (x0 : (⟨Cert.ReferenceIdeal.S65536x768, .f32⟩ : BufTy).Contents (Elt Ideal))
    (x1 x2 : (⟨Cert.ReferenceIdeal.S3x768, .i32⟩ : BufTy).Contents (Elt Ideal)) (hpos : ∀ i, 0 ≤ (x1 i).toInt) :
    Cert.ReferenceIdeal.Read.val_main_v54 (F := Ideal) x0 x1 x2 = Cert.Sketch.sketch x0 x1 x2 := by
  funext i
  rw [pad_apply]
  unfold sketch
  by_cases hc : (i 1).val < 1536
  · rw [dif_pos hc, dif_pos hc, prod_apply x0 x1 x2 hpos]
  · rw [dif_neg hc, dif_neg hc]

end Cert.Sketch.Ref

end
-- ==== Proof.SketchPre.lean ====
/-
  The precondition, read back. The printed predicate is the conjunction of two total reductions by `and`: every
  entry of the data array is finite, and every entry of the first index table compares `≥ 0` (signed) with the
  broadcast zero word. Here the second conjunct is decoded: if the predicate is the all-ones scalar, every word of
  the first index table is nonnegative when read signed.
-/
import proofs.«404943_j79413945303746_3_alg».proof.Proof.Gen.Pre_finite_inputs
import Idealize.ShloMosaic.Lib.ReduceAll
import Idealize.ShloMosaic.Lib.ValueIdx

namespace Cert.Sketch.Pre

open Idealize.ShloMosaic

/-- The scalar shape has exactly one index: two indices are functions out of the empty axis set. -/
instance : Subsingleton Cert.Pre_finite_inputs.S_.Idx := ⟨fun _ _ => funext fun d => d.elim0⟩

/-- If the precondition holds (its scalar result is the word 1), every word of the first index table is
    nonnegative as a signed integer.

    The result at the scalar index is `and` of the two reductions, so the second reduction is 1; a total
    reduction by `and` that is 1 had a 1 at every operand position; at position `i` the operand is the signed
    comparison `a1 i ≥ 0`, the broadcast of the scalar zero reading as zero everywhere; and that comparison word
    being 1 says `(0 : BitVec 32).toInt ≤ (a1 i).toInt`. -/
theorem hash_nonneg {F : FTy → Type} [FloatOps F] (a0 : FVec F Cert.Pre_finite_inputs.S65536x768 .f32)
    (a1 a2 : IVec Cert.Pre_finite_inputs.S3x768 32)
    (h : Cert.Pre_finite_inputs.fn (F := F) a0 a1 a2 = fun _ => 1#1) : ∀ i, 0 ≤ (a1 i).toInt := by
  intro i
  have h0 := congrFun h ValueIdx.ix0
  dsimp only [Cert.Pre_finite_inputs.fn] at h0
  have h1 := (IntOp.andi_eq_one.1 h0).2
  have h2 := Host.reduce_andi_all _ _ _ _ _ h1 i
  have h3 : IntOp.cmpi .sge (a1 i) 0#32 = 1#1 := h2
  have h4 := IntOp.cmpi_sge.1 h3
  rwa [show (0#32 : BitVec 32).toInt = 0 from by decide] at h4

end Cert.Sketch.Pre
-- ==== Proof.lean ====
/- The count sketch as a one-hot matrix product equals the count sketch as a scatter-add.

   The kernel's program builds, on the host, the table whose entry `(j, 1536·k + c)` is the indicator
   of `hash[k, j] = c` times the sign `2·s[k, j] − 1`, and in one region multiplies each block of 512
   rows of the features with the table's three column slices, storing the product of the three
   matrix products and 512 columns of zeros. The reference multiplies the features by the signs,
   scatter-adds them into 1536 buckets per hash function, multiplies the three bucket arrays and pads
   with zeros. Over the extended reals both are the same function of the arguments — the product of
   the three buckets, then zeros — once no hash index is negative: a negative index is counted from
   the end by the reference and dropped by the one-hot table. No finiteness is used: a one-hot
   product and a masked sum agree term by term whatever the features are.

   The three frames: each program runs to the end without a fault and leaves its arguments as they
   were; for the two kernel programs by the launch theorem of the one-region pipeline, for the
   reference by its run. The idealization rewrote nothing, so `preserves` is trivial. -/
import proofs.«404943_j79413945303746_3_alg».proof.Defs
import proofs.«404943_j79413945303746_3_alg».proof.Proof.Gen.Kernel
import proofs.«404943_j79413945303746_3_alg».proof.Proof.Gen.Kernel.Skeleton
import proofs.«404943_j79413945303746_3_alg».proof.Proof.Gen.Kernel.Launch
import proofs.«404943_j79413945303746_3_alg».proof.Proof.Gen.Kernel.Points
import proofs.«404943_j79413945303746_3_alg».proof.Proof.Gen.KernelIdeal
import proofs.«404943_j79413945303746_3_alg».proof.Proof.Gen.KernelIdeal.Skeleton
import proofs.«404943_j79413945303746_3_alg».proof.Proof.Gen.KernelIdeal.Launch
import proofs.«404943_j79413945303746_3_alg».proof.Proof.Gen.KernelIdeal.Points
import proofs.«404943_j79413945303746_3_alg».proof.Proof.Gen.ReferenceIdeal
import proofs.«404943_j79413945303746_3_alg».proof.Proof.Gen.ReferenceIdeal.Run
import proofs.«404943_j79413945303746_3_alg».proof.Proof.Gen.ReferenceIdeal.Read
import proofs.«404943_j79413945303746_3_alg».proof.Proof.Gen.Pre_finite_inputs
import proofs.«404943_j79413945303746_3_alg».proof.Proof.SketchFrameBits
import proofs.«404943_j79413945303746_3_alg».proof.Proof.SketchFrameIdeal
import proofs.«404943_j79413945303746_3_alg».proof.Proof.SketchValue
import proofs.«404943_j79413945303746_3_alg».proof.Proof.SketchRef
import proofs.«404943_j79413945303746_3_alg».proof.Proof.SketchPre
import Idealize.ShloMosaic.Adequacy
import Idealize.ShloMosaic.Init

noncomputable section

namespace Cert.Proof

open Idealize.ShloMosaic Idealize.SL.Sem

/-- The reference's result, for arguments with no negative hash index, is the sketch. -/
theorem reference_result (x0 : (⟨Cert.ReferenceIdeal.S65536x768, .f32⟩ : BufTy).Contents (Elt Ideal))
    (x1 x2 : (⟨Cert.ReferenceIdeal.S3x768, .i32⟩ : BufTy).Contents (Elt Ideal)) (hpos : ∀ i, 0 ≤ (x1 i).toInt) :
    Cert.ReferenceIdeal.Read.val_main_v54 (F := Ideal) x0 x1 x2 = Cert.Sketch.sketch x0 x1 x2 :=
  Cert.Sketch.Ref.ref_is_sketch x0 x1 x2 hpos

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  trivial,
  fun m ρ m' ρ' hpre hagree =>
    ⟨fun c => Cert.Sketch.sketch
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      Cert.KernelIdeal.Hand.run m ρ,
      (θ_run Cert.ReferenceIdeal.defs _ _).mono (fun _ h c =>
        ⟨by
          have hpos := Cert.Sketch.Pre.hash_nonneg _ _ _ (hpre c)
          rw [(h c).1, Cert.ReferenceIdeal.Read.val_main_v54_eq, (hagree c).1, (hagree c).2.1, (hagree c).2.2]
          exact reference_result _ _ _ hpos,
         (h c).2⟩)
        (Cert.ReferenceIdeal.Value.run (F := Ideal) m' ρ')⟩⟩

end Cert.Proof

end
